-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x800000 : Shape := ⟨2, ![2, 800000]⟩
abbrev S50000x64 : Shape := ⟨2, ![50000, 64]⟩
abbrev S_ : Shape := ⟨0, ![]⟩
abbrev S1x800000 : Shape := ⟨2, ![1, 800000]⟩
abbrev S800000 : Shape := ⟨1, ![800000]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  slices_S2x800000_S1x800000_1_0 : S2x800000.Slices ![1, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn {F : FTy → Type} [FloatOps F] (main_arg0 : IVec S2x800000 32) (main_arg1 : FVec F S50000x64 .f32) : IVec S_ 1 :=
  let main_v0 : FVec F S50000x64 .f32 := Host.absf main_arg1
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : IVec S1x800000 32 := (extractStridedSlice S1x800000 ![1, 0] · slices_S2x800000_S1x800000_1_0) main_arg0
  let main_v5 : IVec S800000 32 := shapeCast S800000 main_v4 shapeCasts_S1x800000_S800000
  let main_c_0 : IVec S_ 32 := constantI S_ 32 0#32
  let main_v6 : IVec S800000 32 := broadcastInDim S800000 ![] bcast_S_S800000 main_c_0
  let main_v7 : IVec S800000 1 := cmpi .sge main_v5 main_v6
  let main_v8 : IVec S1x800000 32 := (extractStridedSlice S1x800000 ![1, 0] · slices_S2x800000_S1x800000_1_0) main_arg0
  let main_v9 : IVec S800000 32 := shapeCast S800000 main_v8 shapeCasts_S1x800000_S800000
  let main_c_1 : IVec S_ 32 := constantI S_ 32 50000#32
  let main_v10 : IVec S800000 32 := broadcastInDim S800000 ![] bcast_S_S800000 main_c_1
  let main_v11 : IVec S800000 1 := cmpi .slt main_v9 main_v10
  let main_v12 : IVec S800000 1 := andi main_v7 main_v11
  let main_c_2 : IVec S_ 1 := constantI S_ 1 1#1
  let main_v13 : IVec S_ 1 := (fun x v => Host.reduce IntOp.andi x v reducesTo_S800000_S_d0 h_S_) main_v12 main_c_2
  let main_v14 : IVec S_ 1 := andi main_v3 main_v13
  main_v14
-- ==== Kernel.lean ====
abbrev S2x800000 : Shape := ⟨2, ![2, 800000]⟩
abbrev S50000x64 : Shape := ⟨2, ![50000, 64]⟩
abbrev S_ : Shape := ⟨0, ![]⟩
abbrev S50176x64 : Shape := ⟨2, ![50176, 64]⟩
abbrev S2x1280 : Shape := ⟨2, ![2, 1280]⟩
abbrev S1280x64 : Shape := ⟨2, ![1280, 64]⟩
abbrev S1x1280 : Shape := ⟨2, ![1, 1280]⟩
abbrev S1280 : Shape := ⟨1, ![1280]⟩
abbrev S1024x64 : Shape := ⟨2, ![1024, 64]⟩
abbrev S1280x1024 : Shape := ⟨2, ![1280, 1024]⟩
abbrev S1280x1 : Shape := ⟨2, ![1280, 1]⟩
abbrev S1024x1280 : Shape := ⟨2, ![1024, 1280]⟩

abbrev nBuf : Space → Nat
  | .hbm => 8
  | .vmem => 5
  | .smem => 0
  | _ => 0

abbrev bufTy : (tb : Table) → Fin (tcTables nBuf tb) → BufTy
  | .hbm, ⟨0, _⟩ => ⟨S2x800000, .i32⟩
  | .hbm, ⟨1, _⟩ => ⟨S50000x64, .f32⟩
  | .hbm, ⟨2, _⟩ => ⟨S50000x64, .bf16⟩
  | .hbm, ⟨3, _⟩ => ⟨S_, .i32⟩
  | .hbm, ⟨4, _⟩ => ⟨S_, .bf16⟩
  | .hbm, ⟨5, _⟩ => ⟨S50176x64, .bf16⟩
  | .hbm, ⟨6, _⟩ => ⟨S50176x64, .f32⟩
  | .hbm, ⟨7, _⟩ => ⟨S50000x64, .f32⟩
  | .local _ .vmem, ⟨0, _⟩ => ⟨S2x1280, .i32⟩
  | .local _ .vmem, ⟨1, _⟩ => ⟨S2x1280, .i32⟩
  | .local _ .vmem, ⟨2, _⟩ => ⟨S50176x64, .bf16⟩
  | .local _ .vmem, ⟨3, _⟩ => ⟨S50176x64, .f32⟩
  | .local _ .vmem, ⟨4, _⟩ => ⟨S1280x64, .f32⟩
  | _, _ => ⟨S2x800000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3

abbrev nD : Nat := 1
abbrev τ : Topo := Topo.v7x

variable {F : FTy → Type} [FloatOps F]

abbrev grid0 : Pipeline.Grid := ⟨1, ![625], ![false]⟩

@[reducible] def k0_t1_loop : Scf.Loop 32 :=
  let c0_i32_5 : BitVec 32 := 0#32
  let c49_i32 : BitVec 32 := 49#32
  let v11 : BitVec 32 := Scalar.addi c0_i32_5 c49_i32
  let c1_i32 : BitVec 32 := 1#32
  ⟨c0_i32_5, v11, c1_i32⟩
def k0_mult1 (k0_t1 : Fin k0_t1_loop.trips) : BitVec 32 :=
  let c0_i32_5 : BitVec 32 := 0#32
  let c1_i32 : BitVec 32 := 1#32
  let arg5 : BitVec 32 := Scf.iv c0_i32_5 c1_i32 k0_t1
  let c1024_i32 : BitVec 32 := 1024#32
  let v15 : BitVec 32 := Scalar.muli arg5 c1024_i32
  v15
def k0_off1 (k0_t1 : Fin k0_t1_loop.trips) : Fin 2 → Nat :=
  let c0_i32_5 : BitVec 32 := 0#32
  let c1_i32 : BitVec 32 := 1#32
  let arg5 : BitVec 32 := Scf.iv c0_i32_5 c1_i32 k0_t1
  let c1024_i32 : BitVec 32 := 1024#32
  let v15 : BitVec 32 := Scalar.muli arg5 c1024_i32
  let v16 : BitVec 32 := v15
  let v17 : Index := Scalar.indexCast v16
  let c0_13 : Index := 0#32
  ![v17.toNat, 0]
@[reducible] def k0_t2_loop : Scf.Loop 32 :=
  let c0_i32_9 : BitVec 32 := 0#32
  let c49_i32_10 : BitVec 32 := 49#32
  let v14 : BitVec 32 := Scalar.addi c0_i32_9 c49_i32_10
  let c1_i32_11 : BitVec 32 := 1#32
  ⟨c0_i32_9, v14, c1_i32_11⟩
def k0_mult2 (k0_t2 : Fin k0_t2_loop.trips) : BitVec 32 :=
  let c0_i32_9 : BitVec 32 := 0#32
  let c1_i32_11 : BitVec 32 := 1#32
  let arg5 : BitVec 32 := Scf.iv c0_i32_9 c1_i32_11 k0_t2
  let c1024_i32 : BitVec 32 := 1024#32
  let v15 : BitVec 32 := Scalar.muli arg5 c1024_i32
  v15
def k0_off2 (k0_t2 : Fin k0_t2_loop.trips) : Fin 2 → Nat :=
  let c0_i32_9 : BitVec 32 := 0#32
  let c1_i32_11 : BitVec 32 := 1#32
  let arg5 : BitVec 32 := Scf.iv c0_i32_9 c1_i32_11 k0_t2
  let c1024_i32 : BitVec 32 := 1024#32
  let v15 : BitVec 32 := Scalar.muli arg5 c1024_i32
  let v16 : BitVec 32 := v15
  let v27 : Index := Scalar.indexCast v16
  let c0_14 : Index := 0#32
  ![v27.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x1280 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S50176x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S50176x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  bitsLt_bf16_f32 : FTy.bits .bf16 < FTy.bits .f32
  pads_S50000x64_S50176x64_01760_000 : S50000x64.Pads (![0, 0] : Fin 2 → Nat) ![176, 0] ![0, 0] S50176x64
  h_S_ : 0 < S_.numel
  inb_S50176x64_S50176x64_0_0 : ∀ a, (![0, 0] : Fin 2 → Nat) a + S50176x64.size a ≤ S50176x64.size a
  h_S50176x64 : 0 < S50176x64.numel
  inb_S2x1280_S1x1280_0_0 : ∀ a, (![0, 0] : Fin 2 → Nat) a + S1x1280.size a ≤ S2x1280.size a
  h_S1x1280 : 0 < S1x1280.numel
  shapeCasts_S1x1280_S1280 : S1x1280.ShapeCasts S1280
  inb_S2x1280_S1x1280_1_0 : ∀ a, (![1, 0] : Fin 2 → Nat) a + S1x1280.size a ≤ S2x1280.size a
  inb_S1280x64_S1280x64_0_0 : ∀ a, (![0, 0] : Fin 2 → Nat) a + S1280x64.size a ≤ S1280x64.size a
  h_S1280x64 : 0 < S1280x64.numel
  shapeCasts_S1280x64_S1280x64 : S1280x64.ShapeCasts S1280x64
  h_S1024x64 : 0 < S1024x64.numel
  shapeCasts_S1024x64_S1024x64 : S1024x64.ShapeCasts S1024x64
  iota_S1280x1024_d1_w32 : S1280x1024.Iotas .tc 32 [1]
  shapeCasts_S1280_S1280x1 : S1280.ShapeCasts S1280x1
  broadcasts_S1280x1_S1280x1024 : S1280x1.Broadcasts S1280x1024
  natLt_1_32 : 1 < 32
  iota_S1024x1280_d0_w32 : S1024x1280.Iotas .tc 32 [0]
  shapeCasts_S1280_S1x1280 : S1280.ShapeCasts S1x1280
  broadcasts_S1x1280_S1024x1280 : S1x1280.Broadcasts S1024x1280
  slices_S50176x64_S50000x64_0_0 : S50176x64.Slices ![0, 0] S50000x64
  dot_S1280x1024_S1024x64_S1280x64_1_0_0_1_n_n_wf : DotDims.WF S1280x1024 S1024x64 S1280x64 [1] [0] [0] [1] [] []
  dot_S1024x1280_S1280x64_S1024x64_1_0_0_1_n_n_wf : DotDims.WF S1024x1280 S1280x64 S1024x64 [1] [0] [0] [1] [] []
  hrank0 : 0 < grid0.rank
  k0_t1_ok : k0_t1_loop.OK
  k0_mult1_dvd : ∀ k0_t1 : Fin k0_t1_loop.trips, 1024 ∣ (k0_mult1 k0_t1).toNat
  k0_off1_inb : ∀ k0_t1 : Fin k0_t1_loop.trips, ∀ a, (k0_off1 k0_t1) a + S1024x64.size a ≤ S50176x64.size a
  k0_t2_ok : k0_t2_loop.OK
  k0_mult2_dvd : ∀ k0_t2 : Fin k0_t2_loop.trips, 1024 ∣ (k0_mult2 k0_t2).toNat
  k0_off2_inb : ∀ k0_t2 : Fin k0_t2_loop.trips, ∀ a, (k0_off2 k0_t2) a + S1024x64.size a ≤ S50176x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x1280.size a ≤ S2x800000.size a
  hwx0_0 : ∀ i : grid0.Coords, EltTy.bits .i32 = 32 ∨ (Rect.block (s := S2x800000) S2x1280.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S50176x64.size a ≤ S50176x64.size a
  hwx0_1 : ∀ i : grid0.Coords, EltTy.bits .bf16 = 32 ∨ (Rect.block (s := S50176x64) S50176x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S50176x64.size a ≤ S50176x64.size a
  hwx0_2 : ∀ i : grid0.Coords, EltTy.bits .f32 = 32 ∨ (Rect.block (s := S50176x64) S50176x64.size (cc0_transform_2 i) (hinb0_2 i)).WholeWords (EltTy.packing .f32)

variable [Facts₀]

def dot_S1280x1024_S1024x64_S1280x64_1_0_0_1_n_n : DotDims S1280x1024 S1024x64 S1280x64 where
  lhsContracting := [1]
  rhsContracting := [0]
  lhsNonContracting := [0]
  rhsNonContracting := [1]
  lhsBatch := []
  rhsBatch := []
  wf := dot_S1280x1024_S1024x64_S1280x64_1_0_0_1_n_n_wf
def dot_S1024x1280_S1280x64_S1024x64_1_0_0_1_n_n : DotDims S1024x1280 S1280x64 S1024x64 where
  lhsContracting := [1]
  rhsContracting := [0]
  lhsNonContracting := [0]
  rhsNonContracting := [1]
  lhsBatch := []
  rhsBatch := []
  wf := dot_S1024x1280_S1280x64_S1024x64_1_0_0_1_n_n_wf

abbrev win0_0 : Pipeline.Window sig grid0 :=
  Pipeline.Window.ofSpec (Memref.whole main_arg0) S2x1280.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S50176x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S50176x64.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x800000 : Shape := ⟨2, ![2, 800000]⟩
abbrev S50000x64 : Shape := ⟨2, ![50000, 64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩

abbrev nBuf : Space → Nat
  | .hbm => 19
  | .vmem => 0
  | .smem => 0
  | _ => 0

abbrev bufTy : (tb : Table) → Fin (tcTables nBuf tb) → BufTy
  | .hbm, ⟨0, _⟩ => ⟨S2x800000, .i32⟩
  | .hbm, ⟨1, _⟩ => ⟨S50000x64, .f32⟩
  | .hbm, ⟨2, _⟩ => ⟨S1x800000, .i32⟩
  | .hbm, ⟨3, _⟩ => ⟨S800000, .i32⟩
  | .hbm, ⟨4, _⟩ => ⟨S_, .i32⟩
  | .hbm, ⟨5, _⟩ => ⟨S800000, .i32⟩
  | .hbm, ⟨6, _⟩ => ⟨S800000, .i1⟩
  | .hbm, ⟨7, _⟩ => ⟨S_, .i32⟩
  | .hbm, ⟨8, _⟩ => ⟨S800000, .i32⟩
  | .hbm, ⟨9, _⟩ => ⟨S800000, .i32⟩
  | .hbm, ⟨10, _⟩ => ⟨S800000, .i32⟩
  | .hbm, ⟨11, _⟩ => ⟨S800000x1, .i32⟩
  | .hbm, ⟨12, _⟩ => ⟨S800000x64, .f32⟩
  | .hbm, ⟨13, _⟩ => ⟨S1x800000, .i32⟩
  | .hbm, ⟨14, _⟩ => ⟨S800000, .i32⟩
  | .hbm, ⟨15, _⟩ => ⟨S_, .f32⟩
  | .hbm, ⟨16, _⟩ => ⟨S50000x64, .f32⟩
  | .hbm, ⟨17, _⟩ => ⟨S800000x1, .i32⟩
  | .hbm, ⟨18, _⟩ => ⟨S50000x64, .f32⟩
  | _, _ => ⟨S2x800000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]

class Facts₀ : Prop where
  slices_S2x800000_S1x800000_1_0 : S2x800000.Slices ![1, 0] S1x800000
  shapeCasts_S1x800000_S800000 : S1x800000.ShapeCasts S800000
  bcast_S_S800000 : S_.BroadcastsInDim S800000 (![] : Fin 0 → Fin S800000.rank)
  bcast_S800000_S800000x1_0 : S800000.BroadcastsInDim S800000x1 (![0] : Fin 1 → Fin S800000x1.rank)
  slices_S2x800000_S1x800000_0_0 : S2x800000.Slices ![0, 0] S1x800000
  bcast_S_S50000x64 : S_.BroadcastsInDim S50000x64 (![] : Fin 0 → Fin S50000x64.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.Spec.lean ====
/-
  The mathematics of the message-passing kernel, over plain functions and extended reals.

  Edges are numbered 0 … 799999 and processed in 625 tiles of 1280; nodes are numbered
  0 … 49999 and the feature table is padded with zero rows to 50176 = 49 · 1024 rows.
  An edge's message is the sum, over ALL padded rows, of (one-hot of its source word at that
  row) times the row: the row its source names when that is a row, zero otherwise. A tile adds
  to node row `n` the messages of its edges whose target word is the word of `n`. The result
  is the sum of the tiles' additions; the reference adds, for every edge whose target read as a
  signed integer is `n`, the feature row at its source read as a signed integer and clamped.
-/
import Idealize.ShloMosaic.PureOps.Ideal

noncomputable section

open scoped BigOperators

namespace Cert.MP

/-- One when the two words are equal, zero otherwise, as an extended real. -/
def hot (a b : BitVec 32) : EReal := if a = b then 1 else 0

/-- The number of edge `e` of tile `s`. -/
def edgeOf (s : Fin 625) (e : Fin 1280) : Fin 800000 := ⟨s.val * 1280 + e.val, by omega⟩

/-- Row `j` of node chunk `k`. -/
def rowOf (k : Fin 49) (j : Fin 1024) : Fin 50176 := ⟨k.val * 1024 + j.val, by omega⟩

/-- The feature table padded with zero rows. -/
def xpad (x : Fin 50000 → Fin 64 → EReal) (n : Fin 50176) (d : Fin 64) : EReal :=
  if h : n.val < 50000 then x ⟨n.val, h⟩ d else 0

/-- An edge's message at feature `d`: the one-hot of its source word against every padded row,
    chunk by chunk, times that row. -/
def msgOf (srcw : BitVec 32) (xp : Fin 50176 → Fin 64 → EReal) (d : Fin 64) : EReal :=
  ∑ k : Fin 49, ∑ j : Fin 1024, hot srcw (BitVec.ofNat 32 (rowOf k j).val) * xp (rowOf k j) d

/-- What a tile of 1280 edges adds to row `n`, feature `d`. -/
def tileAdd (tgtw srcw : Fin 1280 → BitVec 32) (xp : Fin 50176 → Fin 64 → EReal) (n : Fin 50176) (d : Fin 64) :
    EReal :=
  ∑ e : Fin 1280, hot (BitVec.ofNat 32 n.val) (tgtw e) * msgOf (srcw e) xp d

/-- The kernel's result at node `n`, feature `d`: the tiles' additions, summed. -/
def kernelSum (tgt src : Fin 800000 → BitVec 32) (x : Fin 50000 → Fin 64 → EReal) (n : Fin 50000) (d : Fin 64) :
    EReal :=
  ∑ s : Fin 625, tileAdd (fun e => tgt (edgeOf s e)) (fun e => src (edgeOf s e)) (xpad x) ⟨n.val, by omega⟩ d

/-- The reference's result at node `n`, feature `d`: over the edges whose target, read signed, is `n`,
    the feature row at the source read signed and clamped into the table. -/
def refSum (tgt src : Fin 800000 → BitVec 32) (x : Fin 50000 → Fin 64 → EReal) (n : Fin 50000) (d : Fin 64) :
    EReal :=
  ∑ E : Fin 800000, if (tgt E).toInt = (n.val : Int) then x ⟨min (src E).toInt.toNat 49999, by omega⟩ d else 0

end Cert.MP

end
-- ==== Proof.Pay.lean ====
/-
  The kernel body's four stored values read at an index, over the extended reals.
  The two fills are zero. A gather trip's value at (edge e, feature d) is what the scratch held there
  plus the sum over the chunk's 1024 rows of (one-hot of the edge's source word at the row's number)
  times the row. A scatter trip's value at (row r of the chunk, feature d) is what the output held
  there plus the sum over the tile's 1280 edges of (one-hot of the row's number at the edge's target
  word) times the edge's message.
-/
import proofs.«422522_j67886253080943_1_alg».proof.Proof.Gen.KernelIdeal.Skeleton
import proofs.«422522_j67886253080943_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate

noncomputable section

open scoped BigOperators

namespace Cert.MP

open Idealize.ShloMosaic Idealize.ShloMosaic.ValueIdx Cert.KernelIdeal Cert.KernelIdeal.Gen

namespace Pay

/-! ## Words: the one-hot entry and a chunk row's number -/

/-- The vector compare, widened and converted, at one element: one when the words are equal, zero otherwise. -/
theorem hot_word (a b : BitVec 32) :
    (FloatOps.sitofp (F := Ideal) .f32 ((IntOp.cmpi .eq a b).setWidth 32) : EReal) = hot a b := by
  unfold hot
  by_cases h : a = b
  · have h1 : IntOp.cmpi .eq a b = 1#1 := StableHlo.Predicate.cmpi_eq_iff.mpr h
    rw [h1, if_pos h]
    show ((((1#1 : BitVec 1).setWidth 32).toInt : ℝ) : EReal) = 1
    have e1 : ((1#1 : BitVec 1).setWidth 32).toInt = 1 := by decide
    rw [e1]; simp
  · have h0 : IntOp.cmpi .eq a b = 0#1 :=
      eq_zero_of_ne_one (fun h1 => h (StableHlo.Predicate.cmpi_eq_iff.mp h1))
    rw [h0, if_neg h]
    show ((((0#1 : BitVec 1).setWidth 32).toInt : ℝ) : EReal) = 0
    have e0 : ((0#1 : BitVec 1).setWidth 32).toInt = 0 := by decide
    rw [e0]; simp

/-- The first row number of chunk k plus the row's place j in the chunk, as words: the word of k · 1024 + j. -/
theorem row_word (k j : Nat) :
    IntOp.addi (Scalar.muli (Scf.iv 0#32 1#32 k) 1024#32) (BitVec.ofNat 32 j) = BitVec.ofNat 32 (k * 1024 + j) := by
  show (0#32 + BitVec.ofNat 32 k * 1#32) * 1024#32 + BitVec.ofNat 32 j = _
  rw [BitVec.ofNat_add, BitVec.ofNat_mul, BitVec.zero_add, BitVec.mul_one]

/-! ## Layout: the source words as a column, broadcast along the chunk's rows -/

/-- A length-1280 vector cast to a [1280, 1] column reads, at (p, u), the vector at p. -/
theorem col_cast_apply {α : Type} (x : S1280.Idx → α) (h : S1280.ShapeCasts S1280x1) (p : Fin 1280) (u : Fin 1) :
    shapeCast S1280x1 x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A [1280, 1] column broadcast to [1280, 1024] reads, at (p, c), the column at (p, 0). -/
theorem col_bcast_apply {α : Type} (v : S1280x1.Idx → α) (h : S1280x1.Broadcasts S1280x1024) (p : Fin 1280) (c : Fin 1024) :
    broadcastTo S1280x1024 v h (ix2 p c) = v (ix2 p (0 : Fin 1)) := by
  refine broadcastTo_apply v h (ix2 p c) (ix2 p (0 : Fin 1)) fun ax => ?_
  match ax with
  | ⟨0, _⟩ => rfl
  | ⟨1, _⟩ => rfl

/-! ## The two one-hot products at an index -/

/-- The gather product's left operand, row coordinate: the output's row. -/
theorem gLhs_0 (j : S1280x64.Idx) (k : dot_S1280x1024_S1024x64_S1280x64_1_0_0_1_n_n.contr.Idx) :
    (dot_S1280x1024_S1024x64_S1280x64_1_0_0_1_n_n.lhsIdx j k 0).val = (j 0).val := rfl

/-- The gather product's left operand, column coordinate: the contracted coordinate. -/
theorem gLhs_1 (j : S1280x64.Idx) (k : dot_S1280x1024_S1024x64_S1280x64_1_0_0_1_n_n.contr.Idx) :
    (dot_S1280x1024_S1024x64_S1280x64_1_0_0_1_n_n.lhsIdx j k 1).val = (k ⟨0, by decide⟩).val :=
  dot_S1280x1024_S1024x64_S1280x64_1_0_0_1_n_n.lhsIdx_val_of_single rfl j k

/-- The gather product's right operand, row coordinate: the contracted coordinate. -/
theorem gRhs_0 (j : S1280x64.Idx) (k : dot_S1280x1024_S1024x64_S1280x64_1_0_0_1_n_n.contr.Idx) :
    (dot_S1280x1024_S1024x64_S1280x64_1_0_0_1_n_n.rhsIdx j k 0).val = (k ⟨0, by decide⟩).val :=
  dot_S1280x1024_S1024x64_S1280x64_1_0_0_1_n_n.rhsIdx_val_of_single rfl j k

/-- The gather product's right operand, column coordinate: the output's column. -/
theorem gRhs_1 (j : S1280x64.Idx) (k : dot_S1280x1024_S1024x64_S1280x64_1_0_0_1_n_n.contr.Idx) :
    (dot_S1280x1024_S1024x64_S1280x64_1_0_0_1_n_n.rhsIdx j k 1).val = (j 1).val := rfl

/-- The gather product at (edge e, feature d): the sum over the chunk's rows of the products of the entries. -/
theorem gMatmul_apply (A : FVec Ideal S1280x1024 .bf16) (B : FVec Ideal S1024x64 .bf16) (e : Fin 1280) (d : Fin 64) :
    (matmul dot_S1280x1024_S1024x64_S1280x64_1_0_0_1_n_n none A B (constant (F := Ideal) S1280x64 .f32 0x00000000#32) (ix2 e d) : EReal)
      = ∑ j : Fin 1024, (A (ix2 e j) : EReal) * (B (ix2 j d) : EReal) := by
  refine (Ideal.matmul_constant_zero_apply dot_S1280x1024_S1024x64_S1280x64_1_0_0_1_n_n none A B (ix2 e d)).trans ?_
  rw [← Equiv.sum_comp (contrEquiv1 dot_S1280x1024_S1024x64_S1280x64_1_0_0_1_n_n 1024 rfl rfl).symm]
  refine Finset.sum_congr rfl fun c _ => ?_
  have c2 := contrEquiv1_symm_val dot_S1280x1024_S1024x64_S1280x64_1_0_0_1_n_n 1024 rfl rfl c
  have l2 : dot_S1280x1024_S1024x64_S1280x64_1_0_0_1_n_n.lhsIdx (ix2 e d)
      ((contrEquiv1 dot_S1280x1024_S1024x64_S1280x64_1_0_0_1_n_n 1024 rfl rfl).symm c) = ix2 e c :=
    Shape.idx_ext₂ (gLhs_0 _ _) ((gLhs_1 _ _).trans c2)
  have r2 : dot_S1280x1024_S1024x64_S1280x64_1_0_0_1_n_n.rhsIdx (ix2 e d)
      ((contrEquiv1 dot_S1280x1024_S1024x64_S1280x64_1_0_0_1_n_n 1024 rfl rfl).symm c) = ix2 c d :=
    Shape.idx_ext₂ ((gRhs_0 _ _).trans c2) (gRhs_1 _ _)
  rw [l2, r2]

/-- The scatter product's left operand, row coordinate: the output's row. -/
theorem sLhs_0 (j : S1024x64.Idx) (k : dot_S1024x1280_S1280x64_S1024x64_1_0_0_1_n_n.contr.Idx) :
    (dot_S1024x1280_S1280x64_S1024x64_1_0_0_1_n_n.lhsIdx j k 0).val = (j 0).val := rfl

/-- The scatter product's left operand, column coordinate: the contracted coordinate. -/
theorem sLhs_1 (j : S1024x64.Idx) (k : dot_S1024x1280_S1280x64_S1024x64_1_0_0_1_n_n.contr.Idx) :
    (dot_S1024x1280_S1280x64_S1024x64_1_0_0_1_n_n.lhsIdx j k 1).val = (k ⟨0, by decide⟩).val :=
  dot_S1024x1280_S1280x64_S1024x64_1_0_0_1_n_n.lhsIdx_val_of_single rfl j k

/-- The scatter product's right operand, row coordinate: the contracted coordinate. -/
theorem sRhs_0 (j : S1024x64.Idx) (k : dot_S1024x1280_S1280x64_S1024x64_1_0_0_1_n_n.contr.Idx) :
    (dot_S1024x1280_S1280x64_S1024x64_1_0_0_1_n_n.rhsIdx j k 0).val = (k ⟨0, by decide⟩).val :=
  dot_S1024x1280_S1280x64_S1024x64_1_0_0_1_n_n.rhsIdx_val_of_single rfl j k

/-- The scatter product's right operand, column coordinate: the output's column. -/
theorem sRhs_1 (j : S1024x64.Idx) (k : dot_S1024x1280_S1280x64_S1024x64_1_0_0_1_n_n.contr.Idx) :
    (dot_S1024x1280_S1280x64_S1024x64_1_0_0_1_n_n.rhsIdx j k 1).val = (j 1).val := rfl

/-- The scatter product at (row r, feature d): the sum over the tile's edges of the products of the entries. -/
theorem sMatmul_apply (A : FVec Ideal S1024x1280 .bf16) (B : FVec Ideal S1280x64 .bf16) (r : Fin 1024) (d : Fin 64) :
    (matmul dot_S1024x1280_S1280x64_S1024x64_1_0_0_1_n_n none A B (constant (F := Ideal) S1024x64 .f32 0x00000000#32) (ix2 r d) : EReal)
      = ∑ e : Fin 1280, (A (ix2 r e) : EReal) * (B (ix2 e d) : EReal) := by
  refine (Ideal.matmul_constant_zero_apply dot_S1024x1280_S1280x64_S1024x64_1_0_0_1_n_n none A B (ix2 r d)).trans ?_
  rw [← Equiv.sum_comp (contrEquiv1 dot_S1024x1280_S1280x64_S1024x64_1_0_0_1_n_n 1280 rfl rfl).symm]
  refine Finset.sum_congr rfl fun c _ => ?_
  have c2 := contrEquiv1_symm_val dot_S1024x1280_S1280x64_S1024x64_1_0_0_1_n_n 1280 rfl rfl c
  have l2 : dot_S1024x1280_S1280x64_S1024x64_1_0_0_1_n_n.lhsIdx (ix2 r d)
      ((contrEquiv1 dot_S1024x1280_S1280x64_S1024x64_1_0_0_1_n_n 1280 rfl rfl).symm c) = ix2 r c :=
    Shape.idx_ext₂ (sLhs_0 _ _) ((sLhs_1 _ _).trans c2)
  have r2 : dot_S1024x1280_S1280x64_S1024x64_1_0_0_1_n_n.rhsIdx (ix2 r d)
      ((contrEquiv1 dot_S1024x1280_S1280x64_S1024x64_1_0_0_1_n_n 1280 rfl rfl).symm c) = ix2 c d :=
    Shape.idx_ext₂ ((sRhs_0 _ _).trans c2) (sRhs_1 _ _)
  rw [l2, r2]

end Pay

open Pay

/-! ## The four stored values -/

/-- The output's fill at the first grid point is zero. -/
theorem pay1_apply (y : S50176x64.Idx) : (k0_pay1 (F := Ideal) y : EReal) = 0 := by
  unfold k0_pay1
  exact Ideal.ofBits_zero_f32

/-- The scratch's fill is zero. -/
theorem pay2_apply (y : S1280x64.Idx) : (k0_pay2 (F := Ideal) y : EReal) = 0 := by
  unfold k0_pay2
  rw [shapeCast_self]
  exact Ideal.ofBits_zero_f32

/-- Gather trip `k`: the scratch plus the one-hot product with chunk `k` of the table. -/
theorem pay3_apply (v5 : Vec Ideal S1x1280 .i32) (k : Fin k0_t1_loop.trips) (v18 : Vec Ideal S1024x64 .bf16)
    (v29 : Vec Ideal S1280x64 .f32) (e : Fin 1280) (d : Fin 64) :
    (k0_pay3 (F := Ideal) v5 k v18 v29 (ix2 e d) : EReal)
      = (v29 (ix2 e d) : EReal)
        + ∑ j : Fin 1024, hot (v5 (ix2 0 e)) (BitVec.ofNat 32 (k.val * 1024 + j.val)) * (v18 (ix2 j d) : EReal) := by
  unfold k0_pay3
  rw [shapeCast_self, shapeCast_self]
  refine congrArg (fun t : EReal => (v29 (ix2 e d) : EReal) + t) ?_
  refine (gMatmul_apply _ _ e d).trans ?_
  refine Finset.sum_congr rfl fun j _ => ?_
  refine congrArg (fun t : EReal => t * (v18 (ix2 j d) : EReal)) ?_
  -- the source word of edge e, through the column cast and the broadcast along the chunk's rows
  have hsrc : broadcastTo S1280x1024
      (shapeCast S1280x1 (shapeCast S1280 v5 shapeCasts_S1x1280_S1280) shapeCasts_S1280_S1280x1)
      broadcasts_S1280x1_S1280x1024 (ix2 e j) = v5 (ix2 0 e) :=
    (col_bcast_apply _ _ e j).trans ((col_cast_apply _ _ e 0).trans (shapeCast_1a_a_apply v5 _ e))
  -- the row's number: the chunk's first row number plus the row's place in the chunk
  have hrow : addi (broadcast S1280x1024 (Scalar.muli (Scf.iv 0#32 1#32 k.val) 1024#32))
      (iota Kind.tc S1280x1024 32 [1] iota_S1280x1024_d1_w32) (ix2 e j) = BitVec.ofNat 32 (k.val * 1024 + j.val) := by
    show IntOp.addi (Scalar.muli (Scf.iv 0#32 1#32 k.val) 1024#32)
      (iota Kind.tc S1280x1024 32 [1] iota_S1280x1024_d1_w32 (ix2 e j)) = _
    rw [iota_single_apply]
    exact row_word k.val j.val
  show FloatOps.sitofp (F := Ideal) .f32 ((IntOp.cmpi .eq
      (broadcastTo S1280x1024
        (shapeCast S1280x1 (shapeCast S1280 v5 shapeCasts_S1x1280_S1280) shapeCasts_S1280_S1280x1)
        broadcasts_S1280x1_S1280x1024 (ix2 e j))
      (addi (broadcast S1280x1024 (Scalar.muli (Scf.iv 0#32 1#32 k.val) 1024#32))
        (iota Kind.tc S1280x1024 32 [1] iota_S1280x1024_d1_w32) (ix2 e j))).setWidth 32) = _
  rw [hsrc, hrow]
  exact hot_word _ _

/-- Scatter trip `k`: the output chunk plus the one-hot product with the tile's messages. -/
theorem pay4_apply (v3 : Vec Ideal S1x1280 .i32) (v12 : Vec Ideal S1280x64 .f32) (k : Fin k0_t2_loop.trips)
    (v28 : Vec Ideal S1024x64 .f32) (r : Fin 1024) (d : Fin 64) :
    (k0_pay4 (F := Ideal) v3 v12 k v28 (ix2 r d) : EReal)
      = (v28 (ix2 r d) : EReal)
        + ∑ e : Fin 1280, hot (BitVec.ofNat 32 (k.val * 1024 + r.val)) (v3 (ix2 0 e)) * (v12 (ix2 e d) : EReal) := by
  unfold k0_pay4
  rw [shapeCast_self]
  refine congrArg (fun t : EReal => (v28 (ix2 r d) : EReal) + t) ?_
  refine (sMatmul_apply _ _ r d).trans ?_
  refine Finset.sum_congr rfl fun e _ => ?_
  -- the message is read as it is: the format change is the identity on extended reals
  show _ * (v12 (ix2 e d) : EReal) = _
  refine congrArg (fun t : EReal => t * (v12 (ix2 e d) : EReal)) ?_
  -- the target word of edge e, through the row cast and the broadcast along the chunk's rows
  have htgt : broadcastTo S1024x1280
      (shapeCast S1x1280 (shapeCast S1280 v3 shapeCasts_S1x1280_S1280) shapeCasts_S1280_S1x1280)
      broadcasts_S1x1280_S1024x1280 (ix2 r e) = v3 (ix2 0 e) :=
    (broadcastTo_1b_ab_apply _ _ r e).trans ((shapeCast_a_1a_apply _ _ 0 e).trans (shapeCast_1a_a_apply v3 _ e))
  -- the row's number: the chunk's first row number plus the row's place in the chunk
  have hrow : addi (broadcast S1024x1280 (Scalar.muli (Scf.iv 0#32 1#32 k.val) 1024#32))
      (iota Kind.tc S1024x1280 32 [0] iota_S1024x1280_d0_w32) (ix2 r e) = BitVec.ofNat 32 (k.val * 1024 + r.val) := by
    show IntOp.addi (Scalar.muli (Scf.iv 0#32 1#32 k.val) 1024#32)
      (iota Kind.tc S1024x1280 32 [0] iota_S1024x1280_d0_w32 (ix2 r e)) = _
    rw [iota_single_apply]
    exact row_word k.val r.val
  show FloatOps.sitofp (F := Ideal) .f32 ((IntOp.cmpi .eq
      (addi (broadcast S1024x1280 (Scalar.muli (Scf.iv 0#32 1#32 k.val) 1024#32))
        (iota Kind.tc S1024x1280 32 [0] iota_S1024x1280_d0_w32) (ix2 r e))
      (broadcastTo S1024x1280
        (shapeCast S1x1280 (shapeCast S1280 v3 shapeCasts_S1x1280_S1280) shapeCasts_S1280_S1x1280)
        broadcasts_S1x1280_S1024x1280 (ix2 r e))).setWidth 32) = _
  rw [htgt, hrow]
  exact hot_word _ _

end Cert.MP

end
-- ==== Proof.Partial.lean ====
/-
  Partial sums for the two sweeps over the 49 node chunks: a message after the first k chunks,
  and its step; after all 49 it is the whole message.
-/
import proofs.«422522_j67886253080943_1_alg».proof.Proof.Spec

noncomputable section

open scoped BigOperators

namespace Cert.MP

/-- One chunk's share of an edge's message. -/
def msgChunk (srcw : BitVec 32) (xp : Fin 50176 → Fin 64 → EReal) (k : Fin 49) (d : Fin 64) : EReal :=
  ∑ j : Fin 1024, hot srcw (BitVec.ofNat 32 (rowOf k j).val) * xp (rowOf k j) d

/-- The message accumulated over the chunks below `k`. -/
def msgUpTo (srcw : BitVec 32) (xp : Fin 50176 → Fin 64 → EReal) (k : ℕ) (d : Fin 64) : EReal :=
  ∑ k' : Fin 49, if k'.val < k then msgChunk srcw xp k' d else 0

theorem msgUpTo_zero (srcw : BitVec 32) (xp : Fin 50176 → Fin 64 → EReal) (d : Fin 64) :
    msgUpTo srcw xp 0 d = 0 := by
  unfold msgUpTo
  exact Finset.sum_eq_zero fun k' _ => if_neg (Nat.not_lt_zero _)

/-- One more chunk adds that chunk's share. -/
theorem msgUpTo_succ (srcw : BitVec 32) (xp : Fin 50176 → Fin 64 → EReal) (k : Fin 49) (d : Fin 64) :
    msgUpTo srcw xp (k.val + 1) d = msgUpTo srcw xp k.val d + msgChunk srcw xp k d := by
  unfold msgUpTo
  have h : ∀ k' : Fin 49, (if k'.val < k.val + 1 then msgChunk srcw xp k' d else 0)
      = (if k'.val < k.val then msgChunk srcw xp k' d else 0) + (if k' = k then msgChunk srcw xp k' d else 0) := by
    intro k'
    by_cases h1 : k'.val < k.val
    · have h2 : k' ≠ k := fun e => by subst e; exact absurd h1 (lt_irrefl _)
      rw [if_pos (by omega), if_pos h1, if_neg h2, add_zero]
    · by_cases h2 : k' = k
      · subst h2; rw [if_pos (Nat.lt_succ_self _), if_neg h1, if_pos rfl, zero_add]
      · have h3 : ¬ k'.val < k.val + 1 := fun h => h2 (Fin.ext (by omega))
        rw [if_neg h3, if_neg h1, if_neg h2, add_zero]
  rw [Finset.sum_congr rfl (fun k' _ => h k'), Finset.sum_add_distrib, Finset.sum_ite_eq' Finset.univ k]
  simp

/-- All 49 chunks make the whole message. -/
theorem msgUpTo_all (srcw : BitVec 32) (xp : Fin 50176 → Fin 64 → EReal) (d : Fin 64) :
    msgUpTo srcw xp 49 d = msgOf srcw xp d := by
  unfold msgUpTo msgOf msgChunk
  exact Finset.sum_congr rfl fun k' _ => if_pos k'.isLt

/-- What a tile's messages add to row `n`: over its edges, the one-hot of the row's number at the edge's
    target word times the edge's message. -/
def rowAdd (tgtw : Fin 1280 → BitVec 32) (msg : Fin 1280 → Fin 64 → EReal) (n : Fin 50176) (d : Fin 64) : EReal :=
  ∑ e : Fin 1280, hot (BitVec.ofNat 32 n.val) (tgtw e) * msg e d

/-- With every message the whole one-hot sum over the padded table, this is the tile's addition. -/
theorem rowAdd_msgOf (tgtw srcw : Fin 1280 → BitVec 32) (xp : Fin 50176 → Fin 64 → EReal) (n : Fin 50176) (d : Fin 64) :
    rowAdd tgtw (fun e d => msgOf (srcw e) xp d) n d = tileAdd tgtw srcw xp n d := rfl

end Cert.MP

end
-- ==== Proof.Sweep.lean ====
/-
  The two sweeps over the 49 node chunks inside one grid point.

  Each trip of either sweep stores ONE rectangle: the gather trip the whole scratch, at the scratch
  it found plus the chunk's one-hot product; the scatter trip chunk k of the output, at what it found
  there plus the one-hot product with the messages. Reading the buffer after the first k trips:
  the scratch holds its entry contents plus the message over the chunks below k; an output row in a
  chunk below k holds its entry contents plus the tile's addition, any other row its entry contents.
-/
import proofs.«422522_j67886253080943_1_alg».proof.Proof.Gen.KernelIdeal.Loops
import proofs.«422522_j67886253080943_1_alg».proof.Proof.Pay
import proofs.«422522_j67886253080943_1_alg».proof.Proof.Partial
import Idealize.ShloMosaic.Lib.Pipeline.Value
import Idealize.ShloMosaic.Lib.Pipeline.Frame
import Idealize.ShloMosaic.Lib.Writes

set_option maxRecDepth 16384

noncomputable section

open scoped BigOperators

namespace Cert.MP

open Idealize.ShloMosaic Idealize.ShloMosaic.TcCoe Idealize.ShloMosaic.ValueIdx Idealize.SL.Sem
open Cert.KernelIdeal Cert.KernelIdeal.Gen

/-- Both sweeps make 49 trips. -/
theorem trips1 : k0_t1_loop.trips = 49 := by decide
theorem trips2 : k0_t2_loop.trips = 49 := by decide

/-- Trip k of the gather sweep loads table rows k·1024 … from column 0. -/
theorem off1_0 : ∀ k : Fin k0_t1_loop.trips, k0_off1 k 0 = k.val * 1024 := by decide +kernel
theorem off1_1 : ∀ k : Fin k0_t1_loop.trips, k0_off1 k 1 = 0 := by decide +kernel
/-- Trip k of the scatter sweep updates output rows k·1024 … from column 0. -/
theorem off2_0 : ∀ k : Fin k0_t2_loop.trips, k0_off2 k 0 = k.val * 1024 := by decide +kernel
theorem off2_1 : ∀ k : Fin k0_t2_loop.trips, k0_off2 k 1 = 0 := by decide +kernel

theorem zz : (![0, 0] : Fin 2 → ℕ) = fun _ => 0 := by
  funext a; fin_cases a <;> rfl

section Trips

variable {F : FTy → Type} [FloatOps F]
variable (𝒱 : Variants) (c : Dev nD) (bd : Option 𝒱.V) (i : grid0.Coords)
  (arg1 : Memref sig .tc .vmem S2x1280 .i32) (harg1 : arg1.IsWhole)
  (arg2 : Memref sig .tc .vmem S50176x64 .bf16) (harg2 : arg2.IsWhole)
  (arg3 : Memref sig .tc .vmem S50176x64 .f32) (harg3 : arg3.IsWhole)
  (arg4 : Memref sig .tc .vmem S1280x64 .f32) (harg4 : arg4.IsWhole)

/-- A gather trip's one store: the whole scratch, at the stored value of the chunk it loads and the scratch it finds. -/
theorem tripL1_eq (v5 : Vec F S1x1280 .i32) (X : BufTy.Contents (Elt F) arg2.view.ty) (k : Fin k0_t1_loop.trips)
    (f : BufTy.Contents (Elt F) arg4.view.ty) :
    tripL_k0_t1 (F := F) 𝒱 c bd i arg1 harg1 arg2 harg2 arg3 harg3 arg4 harg4 v5 X k f
      = [⟨Rect.unit (s := S1280x64) ![0, 0] S1280x64.size Facts₀.inb_S1280x64_S1280x64_0_0,
          k0_pay3 v5 k (View.readAt (Elt F) arg2.view (Rect.unit (s := S50176x64) (k0_off1 k) S1024x64.size (Facts₀.k0_off1_inb k)).toLoadRect X)
            (View.readAt (Elt F) arg4.view (Rect.unit (s := S1280x64) ![0, 0] S1280x64.size Facts₀.inb_S1280x64_S1280x64_0_0).toLoadRect f)⟩] := by
  unfold tripL_k0_t1 trip_k0_t1
  rfl

/-- A scatter trip's one store: chunk k of the output, at the stored value of what it finds there. -/
theorem tripL2_eq (v3 : Vec F S1x1280 .i32) (v12 : Vec F S1280x64 .f32) (k : Fin k0_t2_loop.trips)
    (f : BufTy.Contents (Elt F) arg3.view.ty) :
    tripL_k0_t2 (F := F) 𝒱 c bd i arg1 harg1 arg2 harg2 arg3 harg3 arg4 harg4 v3 v12 k f
      = [⟨Rect.unit (s := S50176x64) (k0_off2 k) S1024x64.size (Facts₀.k0_off2_inb k),
          k0_pay4 v3 v12 k (View.readAt (Elt F) arg3.view (Rect.unit (s := S50176x64) (k0_off2 k) S1024x64.size (Facts₀.k0_off2_inb k)).toLoadRect f)⟩] := by
  unfold tripL_k0_t2 trip_k0_t2
  rfl

end Trips

/-- A store through the whole-shape rectangle, last, leaves its value whatever came before. -/
theorem read_writes_whole_cons {sg : RefSig} {κ : Kind} {sp : Space} {S : Shape} {e : EltTy} {Val : EltTy → Type}
    (v : View sg κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rw [Rect.emb_whole_apply] at e
  exact e

section Gather

variable (𝒱 : Variants) (c : Dev nD) (bd : Option 𝒱.V) (i : grid0.Coords)
  (arg1 : Memref sig .tc .vmem S2x1280 .i32) (harg1 : arg1.IsWhole)
  (arg2 : Memref sig .tc .vmem S50176x64 .bf16) (harg2 : arg2.IsWhole)
  (arg3 : Memref sig .tc .vmem S50176x64 .f32) (harg3 : arg3.IsWhole)
  (arg4 : Memref sig .tc .vmem S1280x64 .f32) (harg4 : arg4.IsWhole)
  (v5 : Vec Ideal S1x1280 .i32) (x1 : Vec Ideal S50176x64 .bf16) (G : BufTy.Contents (Elt Ideal) arg4.view.ty)

/-- Row j of the chunk trip k loads is row k·1024 + j of the table. -/
theorem chunk_read (k : Fin k0_t1_loop.trips) (hk : k.val < 49) (j : Fin 1024) (d : Fin 64) :
    View.readAt (Elt Ideal) arg2.view (Rect.unit (s := S50176x64) (k0_off1 k) S1024x64.size (Facts₀.k0_off1_inb k)).toLoadRect
        (harg2.unread x1) (ix2 j d)
      = x1 (ix2 (rowOf ⟨k.val, hk⟩ j) d) := by
  rw [View.readAt_eq_ld, harg2.read_unread]
  show x1 ((Rect.unit (s := S50176x64) (k0_off1 k) S1024x64.size (Facts₀.k0_off1_inb k)).toLoadRect.idx (ix2 j d)) = _
  congr 1
  funext a
  apply Fin.ext
  match a with
  | ⟨0, _⟩ => show k0_off1 k 0 + 1 * j.val = k.val * 1024 + j.val; rw [off1_0]; omega
  | ⟨1, _⟩ => show k0_off1 k 1 + 1 * d.val = d.val; rw [off1_1]; omega

/-- After the first k gather trips the scratch holds what it held at entry plus the message over the chunks below k. -/
theorem gather_sweep (k : ℕ) (hk : k ≤ 49) (e : Fin 1280) (d : Fin 64) :
    (arg4.view.read (Elt Ideal) (arg4.view.writes (Elt Ideal) G
        (pb_k0_t1 (F := Ideal) 𝒱 c bd i arg1 harg1 arg2 harg2 arg3 harg3 arg4 harg4 v5 (harg2.unread x1) G k)) (ix2 e d) : EReal)
      = (arg4.view.read (Elt Ideal) G (ix2 e d) : EReal)
        + msgUpTo (v5 (ix2 0 e)) (fun n d => (x1 (ix2 n d) : EReal)) k d := by
  induction k with
  | zero => rw [msgUpTo_zero, add_zero]; rfl
  | succ k ih =>
    have hk49 : k < 49 := by omega
    have hkt : k < k0_t1_loop.trips := by rw [trips1]; exact hk49
    have hs := pb_k0_t1_succ (F := Ideal) 𝒱 c bd i arg1 harg1 arg2 harg2 arg3 harg3 arg4 harg4 v5 (harg2.unread x1) G ⟨k, hkt⟩
    dsimp only at hs
    rw [hs, tripL1_eq, List.singleton_append, read_writes_whole_cons _ _ zz, pay3_apply,
      msgUpTo_succ _ _ ⟨k, hk49⟩, ← add_assoc]
    congr 1
    · rw [View.readAt_eq_ld, View.ld_unit_zero zz]
      exact ih (by omega)
    · unfold msgChunk
      refine Finset.sum_congr rfl fun j _ => ?_
      rw [chunk_read arg2 harg2 x1 ⟨k, hkt⟩ hk49 j d]
      rfl

end Gather

end Cert.MP

end
-- ==== Proof.Sweep2.lean ====
/-
  The scatter sweep over the 49 node chunks inside one grid point: trip k stores chunk k of the
  output at what it found there plus the one-hot product with the tile's messages, and touches no
  other row. After the first k trips a row in a chunk below k holds its entry contents plus the
  tile's addition, any other row its entry contents.
-/
import proofs.«422522_j67886253080943_1_alg».proof.Proof.Sweep

set_option maxRecDepth 16384

noncomputable section

open scoped BigOperators

namespace Cert.MP

open Idealize.ShloMosaic Idealize.ShloMosaic.TcCoe Idealize.ShloMosaic.ValueIdx Idealize.SL.Sem
open Cert.KernelIdeal Cert.KernelIdeal.Gen

section Scatter

variable (𝒱 : Variants) (c : Dev nD) (bd : Option 𝒱.V) (i : grid0.Coords)
  (arg1 : Memref sig .tc .vmem S2x1280 .i32) (harg1 : arg1.IsWhole)
  (arg2 : Memref sig .tc .vmem S50176x64 .bf16) (harg2 : arg2.IsWhole)
  (arg3 : Memref sig .tc .vmem S50176x64 .f32) (harg3 : arg3.IsWhole)
  (arg4 : Memref sig .tc .vmem S1280x64 .f32) (harg4 : arg4.IsWhole)
  (v3 : Vec Ideal S1x1280 .i32) (v12 : Vec Ideal S1280x64 .f32) (G : BufTy.Contents (Elt Ideal) arg3.view.ty)

/-- After the first k scatter trips an output row in a chunk below k holds what it held at entry plus the
    tile's addition to it; every other row holds what it held at entry. -/
theorem scatter_sweep (k : ℕ) (hk : k ≤ 49) (n : Fin 50176) (d : Fin 64) :
    (arg3.view.read (Elt Ideal) (arg3.view.writes (Elt Ideal) G
        (pb_k0_t2 (F := Ideal) 𝒱 c bd i arg1 harg1 arg2 harg2 arg3 harg3 arg4 harg4 v3 v12 G k)) (ix2 n d) : EReal)
      = (arg3.view.read (Elt Ideal) G (ix2 n d) : EReal)
        + (if n.val / 1024 < k then rowAdd (fun e => v3 (ix2 0 e)) (fun e d => (v12 (ix2 e d) : EReal)) n d else 0) := by
  induction k with
  | zero => rw [if_neg (Nat.not_lt_zero _), add_zero]; rfl
  | succ k ih =>
    have hk49 : k < 49 := by omega
    have hkt : k < k0_t2_loop.trips := by rw [trips2]; exact hk49
    have hs := pb_k0_t2_succ (F := Ideal) 𝒱 c bd i arg1 harg1 arg2 harg2 arg3 harg3 arg4 harg4 v3 v12 G ⟨k, hkt⟩
    dsimp only at hs
    have ih' := ih (by omega)
    rw [hs, tripL2_eq]
    by_cases hn : n.val / 1024 = k
    · -- the row lies in chunk k: it is row n - k·1024 of the stored rectangle
      have hr : n.val - k * 1024 < 1024 := by omega
      have hidx : (ix2 n d : S50176x64.Idx)
          = (Rect.unit (s := S50176x64) (k0_off2 ⟨k, hkt⟩) S1024x64.size (Facts₀.k0_off2_inb ⟨k, hkt⟩)).emb
              (ix2 (⟨n.val - k * 1024, hr⟩ : Fin 1024) d) := by
        funext a
        apply Fin.ext
        match a with
        | ⟨0, _⟩ =>
          show n.val = k0_off2 ⟨k, hkt⟩ 0 + 1 * (n.val - k * 1024)
          rw [off2_0]
          show n.val = k * 1024 + 1 * (n.val - k * 1024)
          omega
        | ⟨1, _⟩ =>
          show d.val = k0_off2 ⟨k, hkt⟩ 1 + 1 * d.val
          rw [off2_1]
          omega
      -- what the trip loaded at that row is what the buffer held there before the trip
      have hld : View.readAt (Elt Ideal) arg3.view
            (Rect.unit (s := S50176x64) (k0_off2 ⟨k, hkt⟩) S1024x64.size (Facts₀.k0_off2_inb ⟨k, hkt⟩)).toLoadRect
            (arg3.view.writes (Elt Ideal) G
              (pb_k0_t2 (F := Ideal) 𝒱 c bd i arg1 harg1 arg2 harg2 arg3 harg3 arg4 harg4 v3 v12 G k))
            (ix2 (⟨n.val - k * 1024, hr⟩ : Fin 1024) d)
          = arg3.view.read (Elt Ideal) (arg3.view.writes (Elt Ideal) G
              (pb_k0_t2 (F := Ideal) 𝒱 c bd i arg1 harg1 arg2 harg2 arg3 harg3 arg4 harg4 v3 v12 G k)) (ix2 n d) := by
        rw [hidx]
        rfl
      have hkn : (⟨k, hkt⟩ : Fin k0_t2_loop.trips).val * 1024 + (⟨n.val - k * 1024, hr⟩ : Fin 1024).val = n.val := by
        show k * 1024 + (n.val - k * 1024) = n.val
        omega
      rw [List.singleton_append]
      conv_lhs => rw [hidx]
      rw [View.read_writes_cons_emb, pay4_apply, hld, ih', if_neg (by omega), add_zero, if_pos (by omega), hkn]
      rfl
    · -- the row lies outside chunk k: the trip's store does not touch it
      have hmem : ∀ p ∈ [(⟨Rect.unit (s := S50176x64) (k0_off2 ⟨k, hkt⟩) S1024x64.size (Facts₀.k0_off2_inb ⟨k, hkt⟩),
            k0_pay4 v3 v12 ⟨k, hkt⟩ (View.readAt (Elt Ideal) arg3.view
              (Rect.unit (s := S50176x64) (k0_off2 ⟨k, hkt⟩) S1024x64.size (Facts₀.k0_off2_inb ⟨k, hkt⟩)).toLoadRect
              (arg3.view.writes (Elt Ideal) G
                (pb_k0_t2 (F := Ideal) 𝒱 c bd i arg1 harg1 arg2 harg2 arg3 harg3 arg4 harg4 v3 v12 G k)))⟩ :
            View.Piece (Elt Ideal) S50176x64 .f32)],
          (ix2 n d : S50176x64.Idx) ∉ p.1.set := by
        intro p hp
        rw [List.mem_singleton] at hp
        subst hp
        rw [Rect.mem_set_unit]
        intro h
        have h0 := h 0
        rw [off2_0] at h0
        have e1 : ((ix2 n d : S50176x64.Idx) 0 : ℕ) = n.val := rfl
        have e2 : S1024x64.size 0 = 1024 := rfl
        have e3 : (⟨k, hkt⟩ : Fin k0_t2_loop.trips).val = k := rfl
        rw [e1, e2, e3] at h0
        omega
      rw [View.writes_append, View.read_writes_apply_of_forall_not_mem _ _ _ _ hmem, ih']
      by_cases hlt : n.val / 1024 < k
      · rw [if_pos hlt, if_pos (by omega)]
      · rw [if_neg hlt, if_neg (by omega)]

end Scatter

end Cert.MP

end
-- ==== Proof.Point.lean ====
/-
  One grid point. At the first point the output block is filled with zero and then every row gets the
  tile's addition; at any later point every row gets the tile's addition over what the point before left.
  The messages the scatter sweep reads are the scratch after the whole gather sweep from a zeroed scratch:
  each edge's one-hot sum over all 49 chunks of the padded table.
-/
import proofs.«422522_j67886253080943_1_alg».proof.Proof.Gen.KernelIdeal.Frame
import proofs.«422522_j67886253080943_1_alg».proof.Proof.Sweep2

set_option maxRecDepth 16384

noncomputable section

open scoped BigOperators

namespace Cert.MP

open Idealize.ShloMosaic Idealize.ShloMosaic.TcCoe Idealize.ShloMosaic.ValueIdx Idealize.SL.Sem
open Cert.KernelIdeal Cert.KernelIdeal.Gen

variable (c : Dev nD) (i : grid0.Coords)
  (arg1 : Memref sig .tc .vmem S2x1280 .i32) (harg1 : arg1.IsWhole)
  (arg2 : Memref sig .tc .vmem S50176x64 .bf16) (harg2 : arg2.IsWhole)
  (arg3 : Memref sig .tc .vmem S50176x64 .f32) (harg3 : arg3.IsWhole)
  (arg4 : Memref sig .tc .vmem S1280x64 .f32) (harg4 : arg4.IsWhole)

/-- Both sweeps' trip counts, as the runs spell them. -/
theorem trips1' : Scf.trips k0_t1_loop.lb k0_t1_loop.ub k0_t1_loop.st = 49 := by decide
theorem trips2' : Scf.trips (0#32) (Scalar.addi 0#32 49#32) 1#32 = 49 := by decide

/-- Row 0 (the target words) of a tile's edge block, as the body loads it. -/
theorem row0_read (x0 : Vec Ideal S2x1280 .i32) (inb : ∀ a, (![0, 0] : Fin 2 → ℕ) a + S1x1280.size a ≤ S2x1280.size a)
    (e : Fin 1280) :
    View.readAt (Elt Ideal) arg1.view (Rect.unit (s := S2x1280) ![0, 0] S1x1280.size inb).toLoadRect (harg1.unread x0) (ix2 0 e)
      = x0 (ix2 0 e) := by
  rw [View.readAt_eq_ld, harg1.read_unread]
  show x0 ((Rect.unit (s := S2x1280) ![0, 0] S1x1280.size inb).toLoadRect.idx (ix2 0 e)) = _
  congr 1
  funext a
  apply Fin.ext
  match a with
  | ⟨0, _⟩ => show 0 + 1 * 0 = 0; omega
  | ⟨1, _⟩ => show 0 + 1 * e.val = e.val; omega

/-- Row 1 (the source words) of a tile's edge block, as the body loads it. -/
theorem row1_read (x0 : Vec Ideal S2x1280 .i32) (inb : ∀ a, (![1, 0] : Fin 2 → ℕ) a + S1x1280.size a ≤ S2x1280.size a)
    (e : Fin 1280) :
    View.readAt (Elt Ideal) arg1.view (Rect.unit (s := S2x1280) ![1, 0] S1x1280.size inb).toLoadRect (harg1.unread x0) (ix2 0 e)
      = x0 (ix2 1 e) := by
  rw [View.readAt_eq_ld, harg1.read_unread]
  show x0 ((Rect.unit (s := S2x1280) ![1, 0] S1x1280.size inb).toLoadRect.idx (ix2 0 e)) = _
  congr 1
  funext a
  apply Fin.ext
  match a with
  | ⟨0, _⟩ => show 1 + 1 * 0 = 1; omega
  | ⟨1, _⟩ => show 0 + 1 * e.val = e.val; omega

/-- The messages a later point's scatter sweep reads: the scratch after the whole gather sweep from zero. -/
theorem v12B_apply (x0 : Vec Ideal S2x1280 .i32) (x1 : Vec Ideal S50176x64 .bf16) (e : Fin 1280) (d : Fin 64) :
    (kernelRun0_B.sl.v12 (F := Ideal) c i arg1 harg1 arg2 harg2 arg3 harg3 arg4 harg4 x0 x1 (ix2 e d) : EReal)
      = msgOf (x0 (ix2 1 e)) (fun n d => (x1 (ix2 n d) : EReal)) d := by
  unfold kernelRun0_B.sl.v12 kernelRun0_B.sl.HS0_1
  rw [View.readAt_eq_ld, View.ld_unit_zero zz, View.writes_append, trips1',
    gather_sweep Variants.none c none i arg1 harg1 arg2 harg2 arg3 harg3 arg4 harg4 _ x1 _ 49 le_rfl e d,
    msgUpTo_all, read_writes_whole_cons _ _ zz, pay2_apply, zero_add,
    row1_read arg1 harg1 x0 _ e]

/-- The same at the first point. -/
theorem v12A_apply (x0 : Vec Ideal S2x1280 .i32) (x1 : Vec Ideal S50176x64 .bf16) (e : Fin 1280) (d : Fin 64) :
    (kernelRun0_A.sl.v12 (F := Ideal) c i arg1 harg1 arg2 harg2 arg3 harg3 arg4 harg4 x0 x1 (ix2 e d) : EReal)
      = msgOf (x0 (ix2 1 e)) (fun n d => (x1 (ix2 n d) : EReal)) d := by
  unfold kernelRun0_A.sl.v12 kernelRun0_A.sl.HS0_1
  rw [View.readAt_eq_ld, View.ld_unit_zero zz, View.writes_append, trips1',
    gather_sweep Variants.none c none i arg1 harg1 arg2 harg2 arg3 harg3 arg4 harg4 _ x1 _ 49 le_rfl e d,
    msgUpTo_all, read_writes_whole_cons _ _ zz, pay2_apply, zero_add,
    row1_read arg1 harg1 x0 _ e]

/-- The first point: zero plus the tile's addition. -/
theorem out0_A_2_apply (hc0 : cond0_0 i) (x0 : Vec Ideal S2x1280 .i32) (x1 : Vec Ideal S50176x64 .bf16)
    (n : Fin 50176) (d : Fin 64) :
    (out0_A_2 (F := Ideal) c i arg1 harg1 arg2 harg2 arg3 harg3 arg4 harg4 hc0 x0 x1 (ix2 n d) : EReal)
      = 0 + tileAdd (fun e => x0 (ix2 0 e)) (fun e => x0 (ix2 1 e)) (fun n d => (x1 (ix2 n d) : EReal)) n d := by
  unfold out0_A_2
  rw [View.read_writes_of_cover VO0_2 VO0_2.junk arg3.view arg3.view.junk _
    (cover0_A_2 c i arg1 harg1 arg2 harg2 arg3 harg3 arg4 harg4 hc0 x0 x1)]
  unfold kernelRun0_A
  dsimp only
  unfold kernelRun0_A.sl.H2_1
  have hn : n.val / 1024 < 49 := by have := n.isLt; omega
  rw [View.writes_append, trips2',
    scatter_sweep Variants.none c none i arg1 harg1 arg2 harg2 arg3 harg3 arg4 harg4 _ _ _ 49 le_rfl n d,
    if_pos hn, read_writes_whole_cons _ _ zz, pay1_apply, ← rowAdd_msgOf]
  congr 1
  unfold rowAdd
  refine Finset.sum_congr rfl fun e _ => ?_
  dsimp only
  rw [row0_read arg1 harg1 x0 _ e, v12A_apply c i arg1 harg1 arg2 harg2 arg3 harg3 arg4 harg4 x0 x1 e d]

/-- A later point: what the point before left plus the tile's addition. -/
theorem out0_B_2_apply (hc0 : ¬cond0_0 i) (x0 : Vec Ideal S2x1280 .i32) (x1 : Vec Ideal S50176x64 .bf16)
    (xo2 : Vec Ideal S50176x64 .f32) (n : Fin 50176) (d : Fin 64) :
    (out0_B_2 (F := Ideal) c i arg1 harg1 arg2 harg2 arg3 harg3 arg4 harg4 hc0 x0 x1 xo2 (ix2 n d) : EReal)
      = (xo2 (ix2 n d) : EReal)
        + tileAdd (fun e => x0 (ix2 0 e)) (fun e => x0 (ix2 1 e)) (fun n d => (x1 (ix2 n d) : EReal)) n d := by
  unfold out0_B_2
  rw [View.read_writes_of_cover VO0_2 VO0_2.junk arg3.view (harg3.unread xo2) _
    (cover0_B_2 c i arg1 harg1 arg2 harg2 arg3 harg3 arg4 harg4 hc0 x0 x1 xo2)]
  unfold kernelRun0_B
  dsimp only
  have hn : n.val / 1024 < 49 := by have := n.isLt; omega
  rw [trips2',
    scatter_sweep Variants.none c none i arg1 harg1 arg2 harg2 arg3 harg3 arg4 harg4 _ _ _ 49 le_rfl n d,
    if_pos hn, harg3.read_unread, ← rowAdd_msgOf]
  congr 1
  unfold rowAdd
  refine Finset.sum_congr rfl fun e _ => ?_
  dsimp only
  rw [row0_read arg1 harg1 x0 _ e, v12B_apply c i arg1 harg1 arg2 harg2 arg3 harg3 arg4 harg4 x0 x1 e d]

end Cert.MP

end
-- ==== Proof.Acc.lean ====
/-
  The accumulation over the grid: after point t the output block holds, at every row, the sum of the
  additions of tiles 0 … t.
-/
import proofs.«422522_j67886253080943_1_alg».proof.Proof.Point
import Idealize.ShloMosaic.Lib.Pipeline.Value

set_option maxRecDepth 16384

noncomputable section

open scoped BigOperators

namespace Cert.MP

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The addition of the tile of grid point `s` at an index of the output block (zero past the grid). -/
def tileAt (c : Dev nD) (s : ℕ) (y : S50176x64.Idx) : EReal :=
  if h : s < cfg0.N then
    tileAdd (fun e => (iblk (F := Ideal) m c 0 ⟨s, h⟩ : Vec Ideal S2x1280 .i32) (ix2 0 e))
      (fun e => (iblk (F := Ideal) m c 0 ⟨s, h⟩ : Vec Ideal S2x1280 .i32) (ix2 1 e))
      (fun n d => ((iblk (F := Ideal) m c 1 ⟨s, h⟩ : Vec Ideal S50176x64 .bf16) (ix2 n d) : EReal)) (y 0) (y 1)
  else 0

/-- After point t the output block is zero plus the additions of tiles 0 … t. -/
theorem outsAt0_apply (c : Dev nD) (t : ℕ) (ht : t < cfg0.N) (y : S50176x64.Idx) :
    (outsAt0 (F := Ideal) m c t ht y : EReal) = 0 + ∑ s ∈ Finset.range (t + 1), tileAt m c s y := by
  -- an index of the block is (its row, its feature)
  obtain ⟨n, d, rfl⟩ : ∃ (n : Fin 50176) (d : Fin 64), y = ix2 n d := ⟨y 0, y 1, eq_ix2 y⟩
  -- the grid has 625 points, so only point 0 is a first point
  have h625 : cfg0.N = 625 := N_0
  induction t with
  | zero =>
    -- point 0 is the first point: zero plus tile 0's addition, and the sum over {0} is that one term
    refine (congrFun (outsAt0_A (F := Ideal) m c ⟨0, ht⟩ (Nat.zero_mod 625)) (ix2 n d)).trans ?_
    refine (out0_A_2_apply c (grid0.coords ⟨0, ht⟩) (ms0_0 ⟨0, ht⟩) (hs0_0 ⟨0, ht⟩) (ms0_1 ⟨0, ht⟩) (hs0_1 ⟨0, ht⟩)
      (ms0_2 ⟨0, ht⟩) (hs0_2 ⟨0, ht⟩) scM0_0 (Memref.isWhole_whole _) ((hcond0_0 ⟨0, ht⟩).mpr (Nat.zero_mod 625))
      (iblk (F := Ideal) m c 0 ⟨0, ht⟩) (iblk (F := Ideal) m c 1 ⟨0, ht⟩) n d).trans ?_
    refine congrArg (fun v : EReal => 0 + v) ?_
    exact ((Finset.sum_range_one (fun s => tileAt m c s (ix2 n d))).trans (dif_pos ht)).symm
  | succ t ih =>
    -- point t + 1 is a later point: what point t left, which is zero plus tiles 0 … t, plus tile t + 1's addition
    have h0 : ¬ (t + 1) % 625 = 0 := by omega
    refine (congrFun (outsAt0_B (F := Ideal) m c ⟨t + 1, ht⟩ h0) (ix2 n d)).trans ?_
    refine (out0_B_2_apply c (grid0.coords ⟨t + 1, ht⟩) (ms0_0 ⟨t + 1, ht⟩) (hs0_0 ⟨t + 1, ht⟩) (ms0_1 ⟨t + 1, ht⟩)
      (hs0_1 ⟨t + 1, ht⟩) (ms0_2 ⟨t + 1, ht⟩) (hs0_2 ⟨t + 1, ht⟩) scM0_0 (Memref.isWhole_whole _)
      (fun h => h0 ((hcond0_0 ⟨t + 1, ht⟩).mp h)) (iblk (F := Ideal) m c 0 ⟨t + 1, ht⟩) (iblk (F := Ideal) m c 1 ⟨t + 1, ht⟩)
      (outsAt0 (F := Ideal) m c t (Nat.lt_of_succ_lt ht)) n d).trans ?_
    have hstep : tileAt m c (t + 1) (ix2 n d)
        = tileAdd (fun e => (iblk (F := Ideal) m c 0 ⟨t + 1, ht⟩ : Vec Ideal S2x1280 .i32) (ix2 0 e))
            (fun e => (iblk (F := Ideal) m c 0 ⟨t + 1, ht⟩ : Vec Ideal S2x1280 .i32) (ix2 1 e))
            (fun n d => ((iblk (F := Ideal) m c 1 ⟨t + 1, ht⟩ : Vec Ideal S50176x64 .bf16) (ix2 n d) : EReal)) n d :=
      dif_pos ht
    rw [Finset.sum_range_succ (fun s => tileAt m c s (ix2 n d)) (t + 1), hstep, ← add_assoc]
    exact congrArg (fun v : EReal => v + _) (ih (Nat.lt_of_succ_lt ht))

end Cert.MP

end
-- ==== Proof.ArrAfter.lean ====
/-
  The output array after the run. Its one block is the whole array and is written back once, after
  the last grid point: the array ends holding what the last point left in the block.
-/
import proofs.«422522_j67886253080943_1_alg».proof.Proof.Gen.KernelIdeal.Frame
import Idealize.ShloMosaic.Lib.Pipeline.Value
import Idealize.ShloMosaic.Lib.ValueIdx

set_option maxRecDepth 16384

noncomputable section

namespace Cert.MP

open Idealize.ShloMosaic Idealize.ShloMosaic.TcCoe Idealize.ShloMosaic.ValueIdx Idealize.SL.Sem
open Cert.KernelIdeal Cert.KernelIdeal.Gen

variable {F : FTy → Type} [FloatOps F]
variable (m : (ℓ : Loc nD τ sig) → Buf (Elt F) ℓ)

/-- The grid's last point. -/
theorem last_lt : 624 < cfg0.N := by decide

/-- The output window's block index is zero on both axes at every grid point. -/
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

/-- The only point after which the output block is written back is the last. -/
theorem flush_last (t : Fin cfg0.N) (hf : (cfg0.win 2).flush t = true) : t = ⟨624, last_lt⟩ := by
  have h : t.val % 625 = 624 := (flush0_2 t).mp hf
  have hN : t.val < 625 := lt_of_lt_of_eq t.isLt (show cfg0.N = 625 from N_0)
  exact Fin.ext (by show t.val = 624; omega)

/-- The output's block at any point is the whole array: element `y` of the block is element `y` of the array. -/
theorem emb2 (t : Fin cfg0.N) (y : S50176x64.Idx) : ((cfg0.win 2).blk t).view.emb y = y :=
  funext fun a => Fin.ext (by
    match a with
    | ⟨0, _⟩ =>
      show win0_2.index t 0 * 50176 + 1 * (y 0).val = (y 0).val
      rw [(idx2 t).1]; omega
    | ⟨1, _⟩ =>
      show win0_2.index t 1 * 64 + 1 * (y 1).val = (y 1).val
      rw [(idx2 t).2]; omega)

/-- The output array after the run is the block as the last point left it. -/
theorem arrAt2_eq (c : Dev nD) :
    ((dats m 0 c).arrAt 2 cfg0.N : Vec F S50176x64 .f32) = outsAt0 m c 624 last_lt := by
  refine (dats m 0 c).arrAt_eq_of_cover 2 (outsAt0 m c 624 last_lt) (fun t hf => ?_) (fun i => ?_)
  · -- what is written back: only the last point writes back, and it writes the whole block it holds
    obtain rfl := flush_last t hf
    show (cfg0.win 2).cut (grid0.coords ⟨624, last_lt⟩) ((dats m 0 c).after 2 ⟨624, last_lt⟩) = _
    rw [after0_2]
    funext y
    show outsAt0 m c 624 last_lt y = outsAt0 m c 624 last_lt (((cfg0.win 2).blk ⟨624, last_lt⟩).view.emb y)
    exact (congrArg (outsAt0 m c 624 last_lt) (emb2 ⟨624, last_lt⟩ y)).symm
  · -- the cover: every index of the array is the embedding of itself in the last point's block
    refine ⟨⟨624, last_lt⟩, (flush0_2 _).mpr (by decide), ?_⟩
    have h := ((cfg0.win 2).blk ⟨624, last_lt⟩).view.emb_mem_set i
    rwa [emb2] at h

end Cert.MP

end
-- ==== Proof.Host.lean ====
/-
  The host lines around the region, read at an index. Before the region the feature table is
  converted (the identity on extended reals) and padded with zero rows to 50176 rows; the edge
  list's block at grid point t is its columns t·1280 … t·1280 + 1279; the padded table's one block
  is the whole padded table. After the region the result is the first 50000 rows of the output array.
-/
import proofs.«422522_j67886253080943_1_alg».proof.Proof.Gen.KernelIdeal.Frame
import proofs.«422522_j67886253080943_1_alg».proof.Proof.Spec
import Idealize.ShloMosaic.Lib.ValueIdx
import Idealize.ShloMosaic.Lib.Pipeline.Value
import Idealize.ShloMosaic.Lib.StableHlo.Run
import Idealize.ShloMosaic.Lib.KernelVsHost

set_option maxRecDepth 16384

noncomputable section

open scoped BigOperators

namespace Cert.MP

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The edge list as launched, on core `c`. -/
abbrev edges (c : Dev nD) : Vec Ideal S2x800000 .i32 := m ((c.tc : Thread nD τ).loc main_arg0)
/-- The feature table as launched, on core `c`. -/
abbrev feats (c : Dev nD) : Vec Ideal S50000x64 .f32 := m ((c.tc : Thread nD τ).loc main_arg1)

/-- The edge list's block index at grid point `t`: row block 0, column block `t`. -/
theorem idx0 : ∀ t : Fin cfg0.N, win0_0.index t (0 : Fin 2) = 0 ∧ win0_0.index t (1 : Fin 2) = t.val :=
  (by decide +kernel : ∀ t : Fin grid0.N, win0_0.index t (0 : Fin 2) = 0 ∧ win0_0.index t (1 : Fin 2) = t.val)

/-- The padded table's block index is zero on both axes at every grid point. -/
theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)

/-- The padded table as the region finds it: the converted feature table, padded with the converted zero word. -/
theorem V_main_v1 (c : Dev nD) :
    (V m c main_v1 : Vec Ideal S50176x64 .bf16)
      = pad S50176x64 ![0, 0] ![176, 0] ![0, 0]
          (truncf (F := Ideal) (s := S50000x64) (φ := .f32) .bf16 (m ((c.tc : Thread nD τ).loc main_arg1)) bitsLt_bf16_f32)
          (sitofp (F := Ideal) (s := S_) .bf16 (constantI S_ 32 0#32))
          pads_S50000x64_S50176x64_01760_000 h_S_ := by
  dsimp only [V, V0]
  simp only [hostOps0, hostOps0_1, List.flatten_cons, List.flatten_nil, List.append_nil, List.cons_append, List.nil_append]
  after_results
  rfl

/-- A table converted and padded with 176 rows of the converted zero word, read at row `n`: below row 50000 the
    table's entry (the conversion is the identity on extended reals), from row 50000 on the integer zero as an
    extended real, which is zero. -/
theorem padded_apply (x : Vec Ideal S50000x64 .f32) (n : Fin 50176) (d : Fin 64) :
    (pad S50176x64 ![0, 0] ![176, 0] ![0, 0]
        (truncf (F := Ideal) (s := S50000x64) (φ := .f32) .bf16 x bitsLt_bf16_f32)
        (sitofp (F := Ideal) (s := S_) .bf16 (constantI S_ 32 0#32))
        pads_S50000x64_S50176x64_01760_000 h_S_ (ix2 n d) : EReal)
      = xpad (fun n d => (x (ix2 n d) : EReal)) n d := by
  unfold xpad
  by_cases h : n.val < 50000
  · rw [dif_pos h]
    refine (pad_apply_of_inside (s := S50000x64) (t := S50176x64) ![0, 0] ![176, 0] ![0, 0] _ _
      pads_S50000x64_S50176x64_01760_000 h_S_ (ix2 n d) (ix2 (⟨n.val, h⟩ : Fin 50000) d) (fun a => by
        match a with
        | ⟨0, _⟩ => show n.val = 0 + n.val * (0 + 1); omega
        | ⟨1, _⟩ => show d.val = 0 + d.val * (0 + 1); omega)).trans ?_
    rfl
  · rw [dif_neg h]
    refine (pad_apply_of_not_inside (s := S50000x64) (t := S50176x64) ![0, 0] ![176, 0] ![0, 0] _ _
      pads_S50000x64_S50176x64_01760_000 h_S_ (ix2 n d) (0 : Fin 2) (fun hin => h ?_)).trans ?_
    · have h3 : (n.val - 0) / (0 + 1) < 50000 := hin.2.2
      omega
    · show Scalar.sitofp (F := Ideal) .bf16 (0#32) = (0 : EReal)
      rw [Ideal.scalar_sitofp_def]
      simp

/-- The edge list's block at grid point `t`: column `e` of the block is column `t·1280 + e` of the list. -/
theorem iblk0_apply (c : Dev nD) (t : Fin cfg0.N) (ht : t.val < 625) (r : Fin 2) (e : Fin 1280) :
    (iblk (F := Ideal) m c 0 t : Vec Ideal S2x1280 .i32) (ix2 r e) = edges m c (ix2 r (edgeOf ⟨t.val, ht⟩ e)) := by
  unfold iblk
  show V m c main_arg0 (((cfg0.win 0).blk t).view.emb (ix2 r e))
    = m ((c.tc : Thread nD τ).loc main_arg0) (ix2 r (edgeOf ⟨t.val, ht⟩ e))
  rw [V_main_arg0]
  -- an element of the block sits in the array, on each axis, at block index × block size + its own coordinate
  refine congrArg _ (funext fun a => Fin.ext ?_)
  match a with
  | ⟨0, _⟩ =>
    show win0_0.index t 0 * 2 + 1 * r.val = r.val
    rw [(idx0 t).1]; omega
  | ⟨1, _⟩ =>
    show win0_0.index t 1 * 1280 + 1 * e.val = t.val * 1280 + e.val
    rw [(idx0 t).2]; omega

/-- The padded table's block at any grid point is the whole padded table: the feature rows, then zero rows. -/
theorem iblk1_apply (c : Dev nD) (t : Fin cfg0.N) (n : Fin 50176) (d : Fin 64) :
    ((iblk (F := Ideal) m c 1 t : Vec Ideal S50176x64 .bf16) (ix2 n d) : EReal)
      = xpad (fun n d => (feats m c (ix2 n d) : EReal)) n d := by
  unfold iblk
  show (V m c main_v1 (((cfg0.win 1).blk t).view.emb (ix2 n d)) : EReal) = _
  -- the one block is the whole array: an element keeps its coordinates
  have hemb : ((cfg0.win 1).blk t).view.emb (ix2 n d) = ix2 n d := funext fun a => Fin.ext (by
    match a with
    | ⟨0, _⟩ =>
      show win0_1.index t 0 * 50176 + 1 * n.val = n.val
      rw [(idx1 t).1]; omega
    | ⟨1, _⟩ =>
      show win0_1.index t 1 * 64 + 1 * d.val = d.val
      rw [(idx1 t).2]; omega)
  rw [hemb, V_main_v1]
  exact padded_apply (m ((c.tc : Thread nD τ).loc main_arg1)) n d

/-- After the region, the result buffer holds the first 50000 rows of the output array as the region left it. -/
theorem tail_apply (c : Dev nD) (n : Fin 50000) (d : Fin 64) :
    ((Pipeline.afterTail₀ cfgs (dats m) 0 (V0 m) [hostOps1] c main_v3 : Vec Ideal S50000x64 .f32) (ix2 n d) : EReal)
      = (((dats m 0 c).arrAt 2 cfg0.N : Vec Ideal S50176x64 .f32) (ix2 ⟨n.val, by omega⟩ d) : EReal) := by
  unfold Pipeline.afterTail₀
  show StableHlo.after hostOps1 _ (Proc.devRef .tc main_v3) (ix2 n d) = _
  after_results
  -- the slice at offsets (0, 0) reads its operand at the same coordinates; the operand is the output array
  refine (extractStridedSlice_apply (s := S50176x64) (t := S50000x64) ![0, 0] _ slices_S50176x64_S50000x64_0_0
    (ix2 n d) (ix2 (⟨n.val, by omega⟩ : Fin 50176) d) (fun a => by
      match a with
      | ⟨0, _⟩ => show n.val = 0 + n.val; omega
      | ⟨1, _⟩ => show d.val = 0 + d.val; omega)).trans ?_
  exact congrFun (Pipeline.withArrays_arr spec0 launch0.win.arr_inj c (V0 m c) (fun w => (dats m 0 c).arrAt w cfg0.N) 2) _

end Cert.MP

end
-- ==== Proof.Algebra.lean ====
/-
  The one identity that joins the two programs: with every source word a node number, the tiles'
  one-hot sums collapse to the reference's sum over edges.
-/
import proofs.«422522_j67886253080943_1_alg».proof.Proof.Spec

noncomputable section

open scoped BigOperators

namespace Cert.MP

/-- A word equals the word of a number below 2^32 exactly when its unsigned reading is that number. -/
theorem eq_ofNat_iff (w : BitVec 32) (m : Nat) (hm : m < 4294967296) :
    w = BitVec.ofNat 32 m ↔ w.toNat = m := by
  constructor
  · intro h
    rw [h, BitVec.toNat_ofNat]
    exact Nat.mod_eq_of_lt hm
  · intro h
    apply BitVec.eq_of_toNat_eq
    rw [BitVec.toNat_ofNat, h]
    exact (Nat.mod_eq_of_lt hm).symm

/-- A word whose signed reading is nonnegative has that reading as its unsigned reading. -/
theorem toNat_of_toInt_nonneg (w : BitVec 32) (h : 0 ≤ w.toInt) : (w.toNat : Int) = w.toInt := by
  have hlt := w.isLt
  revert h
  rw [BitVec.toInt_eq_toNat_cond]
  split <;> omega

/-- The signed reading of a word is a number below 2^31 exactly when the unsigned reading is. -/
theorem toInt_eq_iff (w : BitVec 32) (m : Nat) (hm : m < 2147483648) :
    w.toInt = (m : Int) ↔ w.toNat = m := by
  have hlt := w.isLt
  rw [BitVec.toInt_eq_toNat_cond]
  split <;> omega

/-- The one-hot of a node's word at a target word is one exactly when the target, read signed, is the node. -/
theorem hot_ofNat_left (n : Nat) (hn : n < 50000) (w : BitVec 32) :
    hot (BitVec.ofNat 32 n) w = if w.toInt = (n : Int) then 1 else 0 := by
  unfold hot
  have h1 : (BitVec.ofNat 32 n = w) ↔ w.toInt = (n : Int) := by
    rw [toInt_eq_iff w n (by omega), ← eq_ofNat_iff w n (by omega)]
    exact eq_comm
  by_cases h : w.toInt = (n : Int)
  · rw [if_pos h, if_pos (h1.mpr h)]
  · rw [if_neg h, if_neg (fun hh => h (h1.mp hh))]

/-- The one-hot of a word at a row's word is one exactly when the word, read unsigned, is the row number. -/
theorem hot_ofNat_right (w : BitVec 32) (m : Nat) (hm : m < 50176) :
    hot w (BitVec.ofNat 32 m) = if w.toNat = m then 1 else 0 := by
  unfold hot
  have h1 := eq_ofNat_iff w m (by omega)
  by_cases h : w.toNat = m
  · rw [if_pos h, if_pos (h1.mpr h)]
  · rw [if_neg h, if_neg (fun hh => h (h1.mp hh))]

/-- An edge's message, when its source word is a node number, is that node's feature row: of the
    49 · 1024 one-hot terms only the one at the source's own row is not zero times something. -/
theorem msgOf_xpad (w : BitVec 32) (x : Fin 50000 → Fin 64 → EReal) (d : Fin 64)
    (r : Nat) (hr : r < 50000) (hw : w.toNat = r) :
    msgOf w (xpad x) d = x ⟨r, hr⟩ d := by
  unfold msgOf
  have hk : r / 1024 < 49 := by omega
  have hj : r % 1024 < 1024 := Nat.mod_lt _ (by omega)
  rw [Finset.sum_eq_single (⟨r / 1024, hk⟩ : Fin 49)]
  · rw [Finset.sum_eq_single (⟨r % 1024, hj⟩ : Fin 1024)]
    · have hrow : (rowOf ⟨r / 1024, hk⟩ ⟨r % 1024, hj⟩).val = r := by
        show r / 1024 * 1024 + r % 1024 = r
        omega
      rw [hot_ofNat_right w _ (rowOf ⟨r / 1024, hk⟩ ⟨r % 1024, hj⟩).isLt, if_pos (hw.trans hrow.symm), one_mul]
      unfold xpad
      rw [dif_pos (by omega : (rowOf ⟨r / 1024, hk⟩ ⟨r % 1024, hj⟩).val < 50000)]
      exact congrArg (fun i => x i d) (Fin.ext hrow)
    · intro j _ hne
      have hne' : w.toNat ≠ (rowOf ⟨r / 1024, hk⟩ j).val := by
        intro h
        apply hne
        apply Fin.ext
        have : r = r / 1024 * 1024 + j.val := hw.symm.trans h
        show j.val = r % 1024
        omega
      rw [hot_ofNat_right w _ (rowOf ⟨r / 1024, hk⟩ j).isLt, if_neg hne', zero_mul]
    · intro h
      exact absurd (Finset.mem_univ _) h
  · intro k _ hne
    apply Finset.sum_eq_zero
    intro j _
    have hne' : w.toNat ≠ (rowOf k j).val := by
      intro h
      apply hne
      apply Fin.ext
      have : r = k.val * 1024 + j.val := hw.symm.trans h
      have hjlt := j.isLt
      show k.val = r / 1024
      omega
    rw [hot_ofNat_right w _ (rowOf k j).isLt, if_neg hne', zero_mul]
  · intro h
    exact absurd (Finset.mem_univ _) h

/-- Summing over the tiles and, in each, over its edges is summing over all edges. -/
theorem sum_edgeOf (f : Fin 800000 → EReal) :
    (∑ s : Fin 625, ∑ e : Fin 1280, f (edgeOf s e)) = ∑ E : Fin 800000, f E := by
  rw [← Finset.sum_product' (Finset.univ : Finset (Fin 625)) (Finset.univ : Finset (Fin 1280))
    (fun s e => f (edgeOf s e))]
  refine Finset.sum_bij' (fun p _ => edgeOf p.1 p.2)
    (fun E _ => ((⟨E.val / 1280, by have := E.isLt; omega⟩ : Fin 625),
                 (⟨E.val % 1280, Nat.mod_lt _ (by omega)⟩ : Fin 1280)))
    (fun _ _ => Finset.mem_univ _) (fun _ _ => Finset.mem_univ _) ?_ ?_ (fun _ _ => rfl)
  · rintro ⟨s, e⟩ _
    have hs := s.isLt
    have he := e.isLt
    apply Prod.ext
    · apply Fin.ext
      show (s.val * 1280 + e.val) / 1280 = s.val
      omega
    · apply Fin.ext
      show (s.val * 1280 + e.val) % 1280 = e.val
      omega
  · intro E _
    apply Fin.ext
    show E.val / 1280 * 1280 + E.val % 1280 = E.val
    omega

/-- With every source word, read signed, in [0, 50000): the kernel's sum of tile additions is the reference's
    sum over the edges whose target is the node. -/
theorem kernelSum_eq_refSum (tgt src : Fin 800000 → BitVec 32) (x : Fin 50000 → Fin 64 → EReal)
    (hsrc : ∀ E, 0 ≤ (src E).toInt ∧ (src E).toInt < 50000) (n : Fin 50000) (d : Fin 64) :
    kernelSum tgt src x n d = refSum tgt src x n d := by
  unfold kernelSum tileAdd refSum
  refine (sum_edgeOf (fun E => hot (BitVec.ofNat 32 n.val) (tgt E) * msgOf (src E) (xpad x) d)).trans ?_
  refine Finset.sum_congr rfl ?_
  intro E _
  obtain ⟨h0, h1⟩ := hsrc E
  have hcast : ((src E).toNat : Int) = (src E).toInt := toNat_of_toInt_nonneg (src E) h0
  have hr : (src E).toNat < 50000 := by omega
  have hnat : (src E).toInt.toNat = (src E).toNat := by omega
  rw [hot_ofNat_left n.val n.isLt (tgt E), msgOf_xpad (src E) x d (src E).toNat hr rfl]
  by_cases ht : (tgt E).toInt = (n.val : Int)
  · rw [if_pos ht, if_pos ht, one_mul]
    refine congrArg (fun i => x i d) (Fin.ext ?_)
    show (src E).toNat = min (src E).toInt.toNat 49999
    omega
  · rw [if_neg ht, if_neg ht, zero_mul]

end Cert.MP

end
-- ==== Proof.PreDecode.lean ====
/-
  What the precondition says of the source row of the edge list: every source word, read signed,
  is a node number.
-/
import proofs.«422522_j67886253080943_1_alg».proof.Proof.Gen.Pre_finite_inputs
import proofs.«422522_j67886253080943_1_alg».proof.Proof.Spec
import Idealize.ShloMosaic.Lib.ValueIdx
import Idealize.ShloMosaic.Lib.ReduceAll
import Idealize.ShloMosaic.Lib.StableHlo.Predicate
import Idealize.ShloMosaic.Lib.Pipeline.Value

noncomputable section

namespace Cert.MP

open Idealize.ShloMosaic Idealize.ShloMosaic.ValueIdx

/-- Row 1 of the 2 × 800000 edge list, cut out as a 1 × 800000 slice and flattened to a vector, holds at
    position `E` the entry (1, E): the flattening keeps the row-major position, 0 · 800000 + E = E, and the
    slice shifts the row coordinate by its offset 1 and the column coordinate by its offset 0. -/
theorem srcRow_apply (a0 : IVec Cert.Pre_finite_inputs.S2x800000 32)
    (hs : Cert.Pre_finite_inputs.S2x800000.Slices ![1, 0] Cert.Pre_finite_inputs.S1x800000)
    (hc : Cert.Pre_finite_inputs.S1x800000.ShapeCasts Cert.Pre_finite_inputs.S800000) (E : Fin 800000) :
    shapeCast Cert.Pre_finite_inputs.S800000
      (extractStridedSlice Cert.Pre_finite_inputs.S1x800000 ![1, 0] a0 hs) hc (ix1 E) = a0 (ix2 1 E) := by
  refine (shapeCast_apply _ hc (ix1 E) (ix2 (0 : Fin 1) E) ?_).trans ?_
  · rewrite [Shape.rowMajor_val_two, Shape.rowMajor_val_one]
    show 0 * 800000 + E.val = E.val
    omega
  · exact extractStridedSlice_apply ![1, 0] a0 hs (ix2 (0 : Fin 1) E) (ix2 1 E) (fun a => match a with
      | ⟨0, _⟩ => by show (1 : Nat) = 1 + 0; rfl
      | ⟨1, _⟩ => by show E.val = 0 + E.val; omega)

/-- Under the precondition every entry of row 1 of the edge list, read signed, lies in [0, 50000). -/
theorem src_range_of_pre (a0 : IVec Cert.Pre_finite_inputs.S2x800000 32) (a1 : FVec Ideal Cert.Pre_finite_inputs.S50000x64 .f32)
    (h : Cert.Pre_finite_inputs.fn (F := Ideal) a0 a1 = fun _ => 1#1) (E : Fin 800000) :
    0 ≤ (a0 (ix2 1 E)).toInt ∧ (a0 (ix2 1 E)).toInt < 50000 := by
  -- the predicate is one bit; it is the conjunction of "every feature is finite" and "every source is in range"
  have h0 := congrFun h ValueIdx.ix0
  dsimp only [Cert.Pre_finite_inputs.fn] at h0
  obtain ⟨_, h2⟩ := IntOp.andi_eq_one.1 h0
  -- the second conjunct is a conjunction over all 800000 positions: each position's bit is one
  haveI : Subsingleton Cert.Pre_finite_inputs.S_.Idx := ⟨fun a b => funext fun d => d.elim0⟩
  have h3 := Host.reduce_andi_all _ _ _ _ _ h2 (ix1 E)
  -- at position E the bit is (source ≥ 0) ∧ (source < 50000), both signed
  obtain ⟨hge, hlt⟩ := IntOp.andi_eq_one.1 h3
  have e := congrArg BitVec.toInt (srcRow_apply a0 Cert.Pre_finite_inputs.Facts.slices_S2x800000_S1x800000_1_0
    Cert.Pre_finite_inputs.Facts.shapeCasts_S1x800000_S800000 E)
  have hge' : (0#32 : BitVec 32).toInt ≤ (a0 (ix2 1 E)).toInt := (IntOp.cmpi_sge.1 hge).trans_eq e
  have hlt' : (a0 (ix2 1 E)).toInt < (50000#32 : BitVec 32).toInt := e.symm.trans_lt (IntOp.cmpi_slt.1 hlt)
  have z : (0#32 : BitVec 32).toInt = 0 := by decide
  have f : (50000#32 : BitVec 32).toInt = 50000 := by decide
  exact ⟨le_of_eq_of_le z.symm hge', lt_of_lt_of_eq hlt' f⟩

end Cert.MP

end
-- ==== Proof.Final.lean ====
/-
  The kernel's result. The result buffer holds the first 50000 rows of the output array; the array
  is the output block as the last grid point left it; that block is the sum of all 625 tiles'
  additions; tile s's blocks are columns s·1280 … of the edge list and the padded table; so the
  result at (n, d) is the kernel's sum of one-hot products, which — every source word being a node
  number, by the precondition — is the reference's sum over the edges whose target is n.
-/
import proofs.«422522_j67886253080943_1_alg».proof.Proof.Acc
import proofs.«422522_j67886253080943_1_alg».proof.Proof.ArrAfter
import proofs.«422522_j67886253080943_1_alg».proof.Proof.Host
import proofs.«422522_j67886253080943_1_alg».proof.Proof.Algebra
import proofs.«422522_j67886253080943_1_alg».proof.Proof.PreDecode
import proofs.«422522_j67886253080943_1_alg».proof.Defs

set_option maxRecDepth 16384

noncomputable section

open scoped BigOperators

namespace Cert.MP

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The result both programs end with on core `c`, as a function of the launched arrays. -/
def resultOf (c : Dev nD) : Vec Ideal S50000x64 .f32 := fun y =>
  refSum (fun E => edges m c (ix2 0 E)) (fun E => edges m c (ix2 1 E)) (fun n d => (feats m c (ix2 n d) : EReal))
    (y 0) (y 1)

/-- Tile s's addition, over the launched arrays. -/
theorem tileAt_eq (c : Dev nD) (s : Fin 625) (n : Fin 50176) (d : Fin 64) :
    tileAt m c s.val (ix2 n d)
      = tileAdd (fun e => edges m c (ix2 0 (edgeOf s e))) (fun e => edges m c (ix2 1 (edgeOf s e)))
          (xpad (fun n d => (feats m c (ix2 n d) : EReal))) n d := by
  have h : s.val < cfg0.N := lt_of_lt_of_eq s.isLt N_0.symm
  unfold tileAt
  rw [dif_pos h]
  simp only [iblk0_apply m c ⟨s.val, h⟩ s.isLt, iblk1_apply m c ⟨s.val, h⟩]

/-- Under the precondition the result buffer ends at `resultOf`. -/
theorem result_eq (hpre : Cert.Pre_KernelIdeal m) (c : Dev nD) :
    (Pipeline.afterTail₀ cfgs (dats m) 0 (V0 m) [hostOps1] c main_v3 : Vec Ideal S50000x64 .f32) = resultOf m c := by
  funext y
  obtain ⟨n, d, rfl⟩ : ∃ (n : Fin 50000) (d : Fin 64), y = ix2 n d := ⟨y 0, y 1, eq_ix2 y⟩
  have hsrc : ∀ E : Fin 800000, 0 ≤ (edges m c (ix2 1 E)).toInt ∧ (edges m c (ix2 1 E)).toInt < 50000 :=
    fun E => src_range_of_pre _ _ (hpre c) E
  show ((Pipeline.afterTail₀ cfgs (dats m) 0 (V0 m) [hostOps1] c main_v3 : Vec Ideal S50000x64 .f32) (ix2 n d) : EReal)
    = refSum _ _ _ n d
  have h1 := tail_apply m c n d
  have h2 : (((dats m 0 c).arrAt 2 cfg0.N : Vec Ideal S50176x64 .f32) (ix2 ⟨n.val, by omega⟩ d) : EReal)
      = (outsAt0 (F := Ideal) m c 624 last_lt (ix2 ⟨n.val, by omega⟩ d) : EReal) :=
    congrFun (arrAt2_eq m c) _
  have h3 := outsAt0_apply m c 624 last_lt (ix2 ⟨n.val, by omega⟩ d)
  refine h1.trans (h2.trans (h3.trans ?_))
  rw [zero_add, Finset.sum_range, ← kernelSum_eq_refSum _ _ _ hsrc n d]
  unfold kernelSum
  exact Finset.sum_congr rfl fun s _ => tileAt_eq m c s _ d

end Cert.MP

end
-- ==== Proof.RefValue.lean ====
/-
  The reference's result read at (node n, feature d): zero plus, over the edges whose target word read
  signed is n, the feature row at the edge's source — which, the source being a node number, is
  neither wrapped nor clamped.
-/
import proofs.«422522_j67886253080943_1_alg».proof.Proof.Gen.ReferenceIdeal.Read
import proofs.«422522_j67886253080943_1_alg».proof.Proof.Spec
import Idealize.ShloMosaic.Lib.ValueIdx
import Idealize.ShloMosaic.Lib.Pipeline.Value
import Idealize.ShloMosaic.Lib.StableHlo.Predicate
import Idealize.ShloMosaic.PureOps.Ideal.Laws

noncomputable section

open scoped BigOperators

namespace Cert.MP

open Idealize.ShloMosaic Idealize.ShloMosaic.ValueIdx Cert.ReferenceIdeal Cert.ReferenceIdeal.Gen

namespace RefValue

/-- The gather's dimension numbers: rows of the table picked by a one-column table of start words. -/
abbrev G := gather_S50000x64_S800000x1_S800000x64_1_0_n_n_0_1_164
/-- The scatter's dimension numbers: rows of the updates added at a one-column table of index words. -/
abbrev Sc := scatter_S50000x64_S800000x1_S800000x64_1_0_0_1

/-! ## The gather: row `E` of the gathered table is the table's row at the start word of `E`, read signed and clamped -/

/-- The start-index position a gathered element reads: its edge's row of the one-column index table. -/
theorem G_siIdx (E : Fin 800000) (d : Fin 64) (c : Fin G.startIndexMap.length) :
    G.siIdx (ix2 E d) c = ix2 E (0 : Fin 1) := by
  funext b
  match b with
  | ⟨0, _⟩ => rfl
  | ⟨1, _⟩ => exact Fin.ext (by have := c.isLt; show c.val = 0; have h : G.startIndexMap.length = 1 := rfl; omega)

/-- On the node axis the slice starts at the start word read signed and clamped into the 50000 rows. -/
theorem G_start0 (j : S800000x64.Idx) (idx : IVec S800000x1 32) :
    G.start j idx 0 = min (idx (G.siIdx j ⟨0, Nat.one_pos⟩)).toInt.toNat 49999 := rfl
/-- The feature axis is not start-indexed. -/
theorem G_start1 (j : S800000x64.Idx) (idx : IVec S800000x1 32) : G.start j idx 1 = 0 := rfl
/-- No axis is a batching axis. -/
theorem G_batch (j : S800000x64.Idx) (a : Fin 2) : G.batchCoord j a = 0 := rfl
/-- The node axis is collapsed: no offset on it. -/
theorem G_off0 (j : S800000x64.Idx) : G.offCoord j 0 = 0 := rfl
/-- The feature axis is the one offset axis: its offset is the element's feature. -/
theorem G_off1 (j : S800000x64.Idx) : G.offCoord j 1 = (j 1).val := rfl

/-- Row `E` of the gathered table at feature `d`: the table at the start word of `E` read signed and clamped, feature `d`. -/
theorem gather_row {α : Type} (x : S50000x64.Idx → α) (idx : IVec S800000x1 32) (E : Fin 800000) (d : Fin 64) :
    Host.gather G x idx (ix2 E d) = x (ix2 ⟨min (idx (ix2 E (0 : Fin 1))).toInt.toNat 49999, by omega⟩ d) := by
  show x (G.operandIdx (ix2 E d) idx) = _
  refine congrArg x ?_
  funext a
  match a with
  | ⟨0, _⟩ =>
    refine Fin.ext ?_
    show G.start (ix2 E d) idx 0 + G.batchCoord (ix2 E d) 0 + G.offCoord (ix2 E d) 0
      = min (idx (ix2 E (0 : Fin 1))).toInt.toNat 49999
    rw [G_start0, G_batch, G_off0, G_siIdx]
    rfl
  | ⟨1, _⟩ =>
    refine Fin.ext ?_
    show G.start (ix2 E d) idx 1 + G.batchCoord (ix2 E d) 1 + G.offCoord (ix2 E d) 1 = d.val
    rw [G_start1, G_batch, G_off1]
    show 0 + 0 + d.val = d.val
    omega

/-- The same, with the start word named. -/
theorem gather_row_of {α : Type} (x : S50000x64.Idx → α) (idx : IVec S800000x1 32) (E : Fin 800000) (d : Fin 64)
    (w : BitVec 32) (hw : idx (ix2 E (0 : Fin 1)) = w) :
    Host.gather G x idx (ix2 E d) = x (ix2 ⟨min w.toInt.toNat 49999, by omega⟩ d) := by
  subst hw
  exact gather_row x idx E d

/-! ## The scatter: update `(E, d')` lands on `(n, d)` exactly when the target word of `E`, read signed, is `n` and `d' = d` -/

/-- The index-table position an update reads its start from: its edge's row of the one-column index table. -/
theorem Sc_siIdx (E : Fin 800000) (d : Fin 64) (c : Fin Sc.scatterDimsToOperandDims.length) :
    Sc.siIdx (ix2 E d) c = ix2 E (0 : Fin 1) := by
  funext b
  match b with
  | ⟨0, _⟩ => rfl
  | ⟨1, _⟩ => exact Fin.ext (by have := c.isLt; show c.val = 0; have h : Sc.scatterDimsToOperandDims.length = 1 := rfl; omega)

/-- On the node axis the window starts at the index word read signed, as it is. -/
theorem Sc_start0 (j : S800000x64.Idx) (idx : IVec S800000x1 32) :
    Sc.start j idx 0 = (idx (Sc.siIdx j ⟨0, Nat.one_pos⟩)).toInt := rfl
/-- The feature axis is not indexed. -/
theorem Sc_start1 (j : S800000x64.Idx) (idx : IVec S800000x1 32) : Sc.start j idx 1 = 0 := rfl
/-- The node axis is an inserted window axis: no window coordinate on it. -/
theorem Sc_window0 (j : S800000x64.Idx) : Sc.window j 0 = 0 := rfl
/-- The feature axis is the one window axis: its coordinate is the update's feature. -/
theorem Sc_window1 (j : S800000x64.Idx) : Sc.window j 1 = (j 1).val := rfl

/-- Update `(E, d')` lands on `(n, d)` exactly when the index word of `E`, read signed, is `n` and `d' = d`:
    a word that reads outside the 50000 rows lands nowhere. -/
theorem Sc_result_iff (idx : IVec S800000x1 32) (E : Fin 800000) (d' : Fin 64) (n : Fin 50000) (d : Fin 64) :
    Sc.resultIdx? (ix2 E d') idx = some (ix2 n d) ↔ (idx (ix2 E (0 : Fin 1))).toInt = (n.val : Int) ∧ d' = d := by
  have hs0 : Sc.start (ix2 E d') idx 0 = (idx (ix2 E (0 : Fin 1))).toInt := by rw [Sc_start0, Sc_siIdx]
  have hs1 : Sc.start (ix2 E d') idx 1 = 0 := rfl
  have hw0 : Sc.window (ix2 E d') 0 = 0 := rfl
  have hw1 : Sc.window (ix2 E d') 1 = d'.val := rfl
  generalize (idx (ix2 E (0 : Fin 1))).toInt = t at hs0 ⊢
  constructor
  · intro he
    unfold ScatterDims.resultIdx? at he
    split at he
    · rename_i h
      have he' := Option.some.inj he
      have e0 : (Sc.start (ix2 E d') idx 0 + ((Sc.window (ix2 E d') 0 : Nat) : Int)).toNat = n.val :=
        congrArg Fin.val (congrFun he' 0)
      have e1 : (Sc.start (ix2 E d') idx 1 + ((Sc.window (ix2 E d') 1 : Nat) : Int)).toNat = d.val :=
        congrArg Fin.val (congrFun he' 1)
      have h0 := (h 0).1
      rw [hs0, hw0] at e0 h0
      rw [hs1, hw1] at e1
      exact ⟨by omega, Fin.ext (by omega)⟩
    · exact absurd he (by simp)
  · rintro ⟨ht, rfl⟩
    have h : ∀ a, 0 ≤ Sc.start (ix2 E d') idx a + ((Sc.window (ix2 E d') a : Nat) : Int)
        ∧ Sc.start (ix2 E d') idx a + ((Sc.window (ix2 E d') a : Nat) : Int) < ((S50000x64.size a : Nat) : Int) := by
      intro a
      match a with
      | ⟨0, _⟩ =>
        show 0 ≤ Sc.start (ix2 E d') idx 0 + ((Sc.window (ix2 E d') 0 : Nat) : Int)
          ∧ Sc.start (ix2 E d') idx 0 + ((Sc.window (ix2 E d') 0 : Nat) : Int) < ((50000 : Nat) : Int)
        rw [hs0, hw0]; have := n.isLt; omega
      | ⟨1, _⟩ =>
        show 0 ≤ Sc.start (ix2 E d') idx 1 + ((Sc.window (ix2 E d') 1 : Nat) : Int)
          ∧ Sc.start (ix2 E d') idx 1 + ((Sc.window (ix2 E d') 1 : Nat) : Int) < ((64 : Nat) : Int)
        rw [hs1, hw1]; have := d'.isLt; omega
    unfold ScatterDims.resultIdx?
    rw [dif_pos h]
    refine congrArg some ?_
    funext a
    match a with
    | ⟨0, _⟩ =>
      refine Fin.ext ?_
      show (Sc.start (ix2 E d') idx 0 + ((Sc.window (ix2 E d') 0 : Nat) : Int)).toNat = n.val
      rw [hs0, hw0]; omega
    | ⟨1, _⟩ =>
      refine Fin.ext ?_
      show (Sc.start (ix2 E d') idx 1 + ((Sc.window (ix2 E d') 1 : Nat) : Int)).toNat = d'.val
      rw [hs1, hw1]; omega

/-- The updates that land on `(n, d)`, summed: one term per edge whose target word read signed is `n`,
    the update of that edge at feature `d`. -/
theorem scatter_sum (idx : IVec S800000x1 32) (upd : S800000x64.Idx → EReal) (n : Fin 50000) (d : Fin 64) :
    ∑ j ∈ Finset.univ.filter (fun j => Sc.resultIdx? j idx = some (ix2 n d)), upd j
      = ∑ E : Fin 800000, if (idx (ix2 E (0 : Fin 1))).toInt = (n.val : Int) then upd (ix2 E d) else 0 := by
  rw [Finset.sum_filter]
  refine (sum_idx2 _).trans ?_
  refine Finset.sum_congr rfl (fun E _ => ?_)
  have hstep : ∀ d' : Fin 64,
      (if Sc.resultIdx? (ix2 E d') idx = some (ix2 n d) then upd (ix2 E d') else 0)
        = if d' = d then (if (idx (ix2 E (0 : Fin 1))).toInt = (n.val : Int) then upd (ix2 E d) else 0) else 0 := by
    intro d'
    by_cases hd : d' = d
    · subst hd
      rw [if_pos rfl]
      exact if_congr ((Sc_result_iff idx E d' n d').trans (and_iff_left rfl)) rfl rfl
    · rw [if_neg hd, if_neg (fun h => hd ((Sc_result_iff idx E d' n d).mp h).2)]
  refine (Finset.sum_congr rfl (fun d' _ => hstep d')).trans ?_
  rw [Finset.sum_ite_eq' Finset.univ d, if_pos (Finset.mem_univ d)]

/-- The accumulating scatter read at `(n, d)`. -/
theorem scatterAdd_apply (x : FVec Ideal S50000x64 .f32) (idx : IVec S800000x1 32) (upd : FVec Ideal S800000x64 .f32)
    (n : Fin 50000) (d : Fin 64) :
    (Host.scatterAdd Sc x idx upd (ix2 n d) : EReal)
      = (x (ix2 n d) : EReal) + ∑ E : Fin 800000, if (idx (ix2 E (0 : Fin 1))).toInt = (n.val : Int) then (upd (ix2 E d) : EReal) else 0 := by
  show (x (ix2 n d) : EReal) + ∑ j ∈ Finset.univ.filter (fun j => Sc.resultIdx? j idx = some (ix2 n d)), (upd j : EReal) = _
  rw [scatter_sum]

/-! ## The index side: the two rows of the edge list as one-column tables -/

/-- The target column, read at edge `E`: row 0 of the edge list at `E`. -/
theorem tgtCol_apply (a0 : (⟨S2x800000, .i32⟩ : BufTy).Contents (Elt Ideal)) (E : Fin 800000) :
    Read.val_main_v12 (F := Ideal) a0 (ix2 E (0 : Fin 1)) = a0 (ix2 0 E) := by
  rw [Read.val_main_v12_apply, Read.val_main_v10_apply, Read.val_main_v9_apply]
  refine congrArg a0 ?_
  funext a
  match a with
  | ⟨0, _⟩ => rfl
  | ⟨1, _⟩ => exact Fin.ext (Nat.mod_eq_of_lt E.isLt)

/-- Row 1 of the edge list as a flat array, read at edge `E`. -/
theorem srcFlat_apply (a0 : (⟨S2x800000, .i32⟩ : BufTy).Contents (Elt Ideal)) (E : Fin 800000) :
    Read.val_main_v1 (F := Ideal) a0 (ix1 E) = a0 (ix2 1 E) := by
  rw [Read.val_main_v1_apply, Read.val_main_v0_apply]
  refine congrArg a0 ?_
  funext a
  match a with
  | ⟨0, _⟩ => rfl
  | ⟨1, _⟩ => exact Fin.ext (Nat.mod_eq_of_lt E.isLt)

/-- A word that reads as a non-negative integer is not below zero, so the wrap-around select keeps it. -/
theorem wrap_id (w : BitVec 32) (h : 0 ≤ w.toInt) :
    Scalar.select (IntOp.cmpi .slt w 0#32) (IntOp.addi w 50000#32) w = w := by
  have hlt : w.slt 0#32 = false := by
    refine Bool.eq_false_iff.mpr (fun hh => ?_)
    have := BitVec.slt_iff_toInt_lt.mp hh
    rw [BitVec.toInt_zero] at this
    omega
  have hc : IntOp.cmpi .slt w 0#32 = 0#1 := by
    show BitVec.ofBool (w.slt 0#32) = 0#1
    rw [hlt]; rfl
  rw [hc]
  exact select_zero _ _

/-- The source column, read at edge `E`, when the source word is not negative: row 1 of the edge list at `E`. -/
theorem srcCol_apply (a0 : (⟨S2x800000, .i32⟩ : BufTy).Contents (Elt Ideal)) (E : Fin 800000)
    (h : 0 ≤ (a0 (ix2 1 E)).toInt) :
    Read.val_main_v7 (F := Ideal) a0 (ix2 E (0 : Fin 1)) = a0 (ix2 1 E) := by
  have hi : Read.idx_main_v7 (ix2 E (0 : Fin 1)) = ix1 E := by
    funext a
    match a with
    | ⟨0, _⟩ => rfl
  rw [Read.val_main_v7_apply, Read.val_main_v6_apply, Read.val_main_v3_apply, Read.val_main_v5_apply,
    Read.val_main_v2_apply, Read.val_main_v4_apply, Read.val_main_c_apply, Read.val_main_c_0_apply, hi, srcFlat_apply]
  exact wrap_id _ h

end RefValue

open RefValue

/-- The reference's result as a function of its two argument arrays (the term its run ends with). -/
def refTerm (a0 : (⟨S2x800000, .i32⟩ : BufTy).Contents (Elt Ideal)) (a1 : (⟨S50000x64, .f32⟩ : BufTy).Contents (Elt Ideal)) :
    (⟨S50000x64, .f32⟩ : BufTy).Contents (Elt Ideal) :=
  Host.scatterAdd scatter_S50000x64_S800000x1_S800000x64_1_0_0_1 (broadcastInDim S50000x64 ![] bcast_S_S50000x64 (constant (F := Ideal) S_ .f32 0x00000000#32)) (broadcastInDim S800000x1 ![0] bcast_S800000_S800000x1_0 (shapeCast _ (extractStridedSlice S1x800000 ![0, 0] a0 slices_S2x800000_S1x800000_0_0) shapeCasts_S1x800000_S800000)) (Host.gather gather_S50000x64_S800000x1_S800000x64_1_0_n_n_0_1_164 a1 (broadcastInDim S800000x1 ![0] bcast_S800000_S800000x1_0 (select (cmpi .slt (shapeCast _ (extractStridedSlice S1x800000 ![1, 0] a0 slices_S2x800000_S1x800000_1_0) shapeCasts_S1x800000_S800000) (broadcastInDim S800000 ![] bcast_S_S800000 (constantI S_ 32 0#32))) (addi (shapeCast _ (extractStridedSlice S1x800000 ![1, 0] a0 slices_S2x800000_S1x800000_1_0) shapeCasts_S1x800000_S800000) (broadcastInDim S800000 ![] bcast_S_S800000 (constantI S_ 32 50000#32))) (shapeCast _ (extractStridedSlice S1x800000 ![1, 0] a0 slices_S2x800000_S1x800000_1_0) shapeCasts_S1x800000_S800000))))

/-- With every source word a node number, the reference's result at (n, d) is `refSum` of the two rows of
    the edge list and the table. -/
theorem refTerm_apply (a0 : (⟨S2x800000, .i32⟩ : BufTy).Contents (Elt Ideal)) (a1 : (⟨S50000x64, .f32⟩ : BufTy).Contents (Elt Ideal))
    (hsrc : ∀ E : Fin 800000, 0 ≤ (a0 (ix2 1 E)).toInt ∧ (a0 (ix2 1 E)).toInt < 50000) (n : Fin 50000) (d : Fin 64) :
    (refTerm a0 a1 (ix2 n d) : EReal)
      = refSum (fun E => a0 (ix2 0 E)) (fun E => a0 (ix2 1 E)) (fun n d => (a1 (ix2 n d) : EReal)) n d := by
  show (Host.scatterAdd (F := Ideal) (φ := .f32) Sc (Read.val_main_v11 (F := Ideal)) (Read.val_main_v12 (F := Ideal) a0)
    (Host.gather G a1 (Read.val_main_v7 (F := Ideal) a0)) (ix2 n d) : EReal) = _
  rw [scatterAdd_apply, Read.val_main_v11_apply, Read.val_main_cst_apply]
  have hz : (FloatOps.ofBits (F := Ideal) FTy.f32 0x00000000#32 : EReal) = 0 := Ideal.ofBits_zero_f32
  rw [hz, zero_add]
  unfold refSum
  refine Finset.sum_congr rfl (fun E _ => ?_)
  rw [tgtCol_apply, gather_row_of a1 _ E d _ (srcCol_apply a0 E (hsrc E).1)]

end Cert.MP

end
-- ==== Proof.lean ====
/-
  The certificate of the message-passing kernel against its reference: out[tgt E] += x[src E] over
  800000 edges, 50000 nodes, 64 features.

  The kernel computes it with one-hot products: per tile of 1280 edges, each edge's message is the sum
  over all rows of the zero-padded table of (one-hot of its source word at the row's number) times the
  row, and each output row gets the sum over the tile's edges of (one-hot of the row's number at the
  edge's target word) times the message; the output block is carried across the 625 grid points and
  its first 50000 rows are the result. Over the extended reals 0·y = 0 and 1·y = y for every y, so each
  one-hot sum has at most one term, and with every source word a node number (the precondition: the
  reference's own gather is only in range there) the message is the source's feature row; a target
  word that is no node number adds to no row on either side. So both programs end with, at node n,
  the sum over the edges whose target read signed is n of the source's feature row.

  The three frames are the generated ones (the reference's is its generated run with the result
  dropped); the idealization rewrote no operation.
-/
import proofs.«422522_j67886253080943_1_alg».proof.Defs
import proofs.«422522_j67886253080943_1_alg».proof.Proof.Gen.Kernel
import proofs.«422522_j67886253080943_1_alg».proof.Proof.Gen.Kernel.Skeleton
import proofs.«422522_j67886253080943_1_alg».proof.Proof.Gen.Kernel.Loops
import proofs.«422522_j67886253080943_1_alg».proof.Proof.Gen.Kernel.Launch
import proofs.«422522_j67886253080943_1_alg».proof.Proof.Gen.Kernel.Points
import proofs.«422522_j67886253080943_1_alg».proof.Proof.Gen.Kernel.Frame
import proofs.«422522_j67886253080943_1_alg».proof.Proof.Gen.KernelIdeal
import proofs.«422522_j67886253080943_1_alg».proof.Proof.Gen.KernelIdeal.Skeleton
import proofs.«422522_j67886253080943_1_alg».proof.Proof.Gen.KernelIdeal.Loops
import proofs.«422522_j67886253080943_1_alg».proof.Proof.Gen.KernelIdeal.Launch
import proofs.«422522_j67886253080943_1_alg».proof.Proof.Gen.KernelIdeal.Points
import proofs.«422522_j67886253080943_1_alg».proof.Proof.Gen.KernelIdeal.Frame
import proofs.«422522_j67886253080943_1_alg».proof.Proof.Gen.ReferenceIdeal
import proofs.«422522_j67886253080943_1_alg».proof.Proof.Gen.Pre_finite_inputs
import proofs.«422522_j67886253080943_1_alg».proof.Proof.Gen.ReferenceIdeal.Run
import proofs.«422522_j67886253080943_1_alg».proof.Proof.Gen.ReferenceIdeal.Read
import Idealize.ShloMosaic.Adequacy
import Idealize.ShloMosaic.Init

import proofs.«422522_j67886253080943_1_alg».proof.Proof.Final
import proofs.«422522_j67886253080943_1_alg».proof.Proof.RefValue

noncomputable section

namespace Cert.Proof

open Idealize.ShloMosaic Idealize.ShloMosaic.TcCoe Idealize.SL.Sem Idealize.ShloMosaic.ValueIdx

theorem frame_p : Cert.frame_Kernel := fun m ρ _ => Cert.Kernel.Gen.frame m ρ

theorem frame_pi : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The kernel's run: the result buffer ends at the sum over the edges whose target is the node of the
    source's feature row, and the two argument arrays end as launched. -/
theorem kernel_run (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v3) = Cert.MP.resultOf m c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)) := by
  refine (θ_run Cert.KernelIdeal.defs _ _).mono (fun r h c => ⟨?_, ?_, ?_⟩) (Cert.KernelIdeal.Gen.run_main m ρ)
  · exact ((h c).2 Cert.KernelIdeal.main_v3 (Pipeline.mem_restRefs_of Cert.KernelIdeal.main_v3 (by decide) (by decide))).trans
      (Cert.MP.result_eq m hpre c)
  · exact ((h c).1 0).trans (((Cert.KernelIdeal.Gen.dats m 0 c).arrAt_in 0 rfl _).trans
      ((Cert.KernelIdeal.Gen.A_eq m c 0).trans (Cert.KernelIdeal.Gen.V_main_arg0 m c)))
  · exact ((h c).2 Cert.KernelIdeal.main_arg1 (Pipeline.mem_restRefs_of Cert.KernelIdeal.main_arg1 (by decide) (by decide))).trans
      (Cert.KernelIdeal.Gen.W_main_arg1 m (Cert.KernelIdeal.Gen.dats m) c)

/-- Both idealized programs, from memories agreeing on the arguments, end with the same result. -/
theorem algebraic : Cert.algebraic_KernelIdeal_ReferenceIdeal := by
  intro m ρ m' ρ' hpre hagree
  refine ⟨fun c => Cert.MP.resultOf m c, kernel_run m ρ hpre, ?_⟩
  refine (θ_run Cert.ReferenceIdeal.defs _ _).mono (fun r h c => ⟨(h c).1.trans ?_, (h c).2⟩)
    (Cert.ReferenceIdeal.Value.run (F := Ideal) m' ρ')
  rw [(hagree c).1, (hagree c).2]
  funext y
  obtain ⟨n, d, rfl⟩ : ∃ (n : Fin 50000) (d : Fin 64), y = ix2 n d := ⟨y 0, y 1, eq_ix2 y⟩
  exact Cert.MP.refTerm_apply _ _ (fun E => Cert.MP.src_range_of_pre _ _ (hpre c) E) n d

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
